-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S65536 : Shape := ⟨1, ![65536]⟩
abbrev S262144x128 : Shape := ⟨2, ![262144, 128]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S262144x128 : S_.BroadcastsInDim S262144x128 (![] : Fin 0 → Fin S262144x128.rank)
  reducesTo_S262144x128_S_d0_1 : S262144x128.ReducesTo [0, 1] S_

variable [Facts]

def fn {F : FTy → Type} [FloatOps F] (main_arg0 : FVec F S65536x128 .f32) (main_arg1 : IVec S65536 32) (main_arg2 : FVec F S262144x128 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S262144x128 .f32 := Host.absf main_arg2
  let main_cst_0 : FVec F S_ .f32 := constant S_ .f32 0x7F800000#32
  let main_v5 : FVec F S262144x128 .f32 := broadcastInDim S262144x128 ![] bcast_S_S262144x128 main_cst_0
  let main_v6 : IVec S262144x128 1 := cmpf .olt main_v4 main_v5
  let main_c_1 : IVec S_ 1 := constantI S_ 1 1#1
  let main_v7 : IVec S_ 1 := (fun x v => Host.reduce IntOp.andi x v reducesTo_S262144x128_S_d0_1 h_S_) main_v6 main_c_1
  let main_v8 : IVec S_ 1 := andi main_v3 main_v7
  main_v8
-- ==== Kernel.lean ====
abbrev S65536x128 : Shape := ⟨2, ![65536, 128]⟩
abbrev S65536 : Shape := ⟨1, ![65536]⟩
abbrev S262144x128 : Shape := ⟨2, ![262144, 128]⟩
abbrev S65536x1 : Shape := ⟨2, ![65536, 1]⟩
abbrev S64x128 : Shape := ⟨2, ![64, 128]⟩
abbrev S2048x128 : Shape := ⟨2, ![2048, 128]⟩
abbrev S2048x1 : Shape := ⟨2, ![2048, 1]⟩
abbrev S2048x64 : Shape := ⟨2, ![2048, 64]⟩
abbrev S64 : Shape := ⟨1, ![64]⟩
abbrev S64x1 : Shape := ⟨2, ![64, 1]⟩
abbrev S262144x64 : Shape := ⟨2, ![262144, 64]⟩
abbrev S4096x128 : Shape := ⟨2, ![4096, 128]⟩
abbrev S4096x64 : Shape := ⟨2, ![4096, 64]⟩
abbrev S4096 : Shape := ⟨1, ![4096]⟩
abbrev S4096x1 : Shape := ⟨2, ![4096, 1]⟩
abbrev S1x64 : Shape := ⟨2, ![1, 64]⟩

abbrev nBuf : Space → Nat
  | .hbm => 6
  | .vmem => 12
  | .smem => 0
  | _ => 0

abbrev bufTy : (tb : Table) → Fin (tcTables nBuf tb) → BufTy
  | .hbm, ⟨0, _⟩ => ⟨S65536x128, .f32⟩
  | .hbm, ⟨1, _⟩ => ⟨S65536, .i32⟩
  | .hbm, ⟨2, _⟩ => ⟨S262144x128, .f32⟩
  | .hbm, ⟨3, _⟩ => ⟨S65536x1, .i32⟩
  | .hbm, ⟨4, _⟩ => ⟨S64x128, .f32⟩
  | .hbm, ⟨5, _⟩ => ⟨S262144x64, .f32⟩
  | .local _ .vmem, ⟨0, _⟩ => ⟨S2048x128, .f32⟩
  | .local _ .vmem, ⟨1, _⟩ => ⟨S2048x128, .f32⟩
  | .local _ .vmem, ⟨2, _⟩ => ⟨S2048x1, .i32⟩
  | .local _ .vmem, ⟨3, _⟩ => ⟨S2048x1, .i32⟩
  | .local _ .vmem, ⟨4, _⟩ => ⟨S64x128, .f32⟩
  | .local _ .vmem, ⟨5, _⟩ => ⟨S64x128, .f32⟩
  | .local _ .vmem, ⟨6, _⟩ => ⟨S64x128, .f32⟩
  | .local _ .vmem, ⟨7, _⟩ => ⟨S4096x128, .f32⟩
  | .local _ .vmem, ⟨8, _⟩ => ⟨S4096x128, .f32⟩
  | .local _ .vmem, ⟨9, _⟩ => ⟨S64x128, .f32⟩
  | .local _ .vmem, ⟨10, _⟩ => ⟨S4096x64, .f32⟩
  | .local _ .vmem, ⟨11, _⟩ => ⟨S4096x64, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v29 : BitVec 1 := Scalar.cmpi .eq arg0 c31_i32
  let v30 : BitVec 32 := Scalar.extui v29
  let c0_i32_13 : BitVec 32 := 0#32
  let v31 : BitVec 1 := Scalar.cmpi .ne v30 c0_i32_13
  v31

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4096x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S65536_S65536x1 : S65536.ShapeCasts S65536x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S2048x128_S2048x128_0_0 : ∀ a, (![0, 0] : Fin 2 → Nat) a + S2048x128.size a ≤ S2048x128.size a
  h_S2048x128 : 0 < S2048x128.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x64_d1_w32 : S2048x64.Iotas .tc 32 [1]
  broadcasts_S2048x1_S2048x64 : S2048x1.Broadcasts S2048x64
  natLt_1_32 : 1 < 32
  bitsLt_bf16_f32 : FTy.bits .bf16 < FTy.bits .f32
  reduces_S2048x64_S64 : S2048x64.Reduces [0] S64
  shapeCasts_S64_S64x1 : S64.ShapeCasts S64x1
  shapeCasts_S64x1_S64x1 : S64x1.ShapeCasts S64x1
  broadcasts_S64x1_S64x128 : S64x1.Broadcasts S64x128
  inb_S4096x128_S4096x128_0_0 : ∀ a, (![0, 0] : Fin 2 → Nat) a + S4096x128.size a ≤ S4096x128.size a
  h_S4096x128 : 0 < S4096x128.numel
  reduces_S4096x128_S4096 : S4096x128.Reduces [1] S4096
  shapeCasts_S4096_S4096x1 : S4096.ShapeCasts S4096x1
  reduces_S64x128_S64 : S64x128.Reduces [1] S64
  shapeCasts_S64_S1x64 : S64.ShapeCasts S1x64
  broadcasts_S4096x1_S4096x64 : S4096x1.Broadcasts S4096x64
  broadcasts_S1x64_S4096x64 : S1x64.Broadcasts S4096x64
  reduces_S4096x64_S4096 : S4096x64.Reduces [1] S4096
  inb_S4096x64_S4096x64_0_0 : ∀ a, (![0, 0] : Fin 2 → Nat) a + S4096x64.size a ≤ S4096x64.size a
  h_S4096x64 : 0 < S4096x64.numel
  dot_S2048x64_S2048x128_S64x128_0_0_1_1_n_n_wf : DotDims.WF S2048x64 S2048x128 S64x128 [0] [0] [1] [1] [] []
  dot_S4096x128_S64x128_S4096x64_1_1_0_0_n_n_wf : DotDims.WF S4096x128 S64x128 S4096x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S65536x128.size a
  hwx0_0 : ∀ i : grid0.Coords, EltTy.bits .f32 = 32 ∨ (Rect.block (s := S65536x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S65536x1.size a
  hwx0_1 : ∀ i : grid0.Coords, EltTy.bits .i32 = 32 ∨ (Rect.block (s := S65536x1) S2048x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S262144x128.size a
  hwx1_0 : ∀ i : grid1.Coords, EltTy.bits .f32 = 32 ∨ (Rect.block (s := S262144x128) S4096x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x64.size a ≤ S262144x64.size a
  hwx1_2 : ∀ i : grid1.Coords, EltTy.bits .f32 = 32 ∨ (Rect.block (s := S262144x64) S4096x64.size (cc1_transform_2 i) (hinb1_2 i)).WholeWords (EltTy.packing .f32)

variable [Facts₀]

def dot_S2048x64_S2048x128_S64x128_0_0_1_1_n_n : DotDims S2048x64 S2048x128 S64x128 where
  lhsContracting := [0]
  rhsContracting := [0]
  lhsNonContracting := [1]
  rhsNonContracting := [1]
  lhsBatch := []
  rhsBatch := []
  wf := dot_S2048x64_S2048x128_S64x128_0_0_1_1_n_n_wf
def dot_S4096x128_S64x128_S4096x64_1_1_0_0_n_n : DotDims S4096x128 S64x128 S4096x64 where
  lhsContracting := [1]
  rhsContracting := [1]
  lhsNonContracting := [0]
  rhsNonContracting := [0]
  lhsBatch := []
  rhsBatch := []
  wf := dot_S4096x128_S64x128_S4096x64_1_1_0_0_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg2) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S4096x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S65536x128 : Shape := ⟨2, ![65536, 128]⟩
abbrev S65536 : Shape := ⟨1, ![65536]⟩
abbrev S262144x128 : Shape := ⟨2, ![262144, 128]⟩
abbrev S_ : Shape := ⟨0, ![]⟩
abbrev S64x128 : Shape := ⟨2, ![64, 128]⟩
abbrev S65536x1 : Shape := ⟨2, ![65536, 1]⟩
abbrev S64 : Shape := ⟨1, ![64]⟩
abbrev S64x1 : Shape := ⟨2, ![64, 1]⟩
abbrev S262144 : Shape := ⟨1, ![262144]⟩
abbrev S262144x1 : Shape := ⟨2, ![262144, 1]⟩
abbrev S1x64 : Shape := ⟨2, ![1, 64]⟩
abbrev S262144x64 : Shape := ⟨2, ![262144, 64]⟩
abbrev S128x64 : Shape := ⟨2, ![128, 64]⟩

abbrev nBuf : Space → Nat
  | .hbm => 55
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S65536, .i32⟩
  | .hbm, ⟨2, _⟩ => ⟨S262144x128, .f32⟩
  | .hbm, ⟨3, _⟩ => ⟨S_, .f32⟩
  | .hbm, ⟨4, _⟩ => ⟨S64x128, .f32⟩
  | .hbm, ⟨5, _⟩ => ⟨S65536x1, .i32⟩
  | .hbm, ⟨6, _⟩ => ⟨S64x128, .f32⟩
  | .hbm, ⟨7, _⟩ => ⟨S_, .f32⟩
  | .hbm, ⟨8, _⟩ => ⟨S65536, .f32⟩
  | .hbm, ⟨9, _⟩ => ⟨S_, .f32⟩
  | .hbm, ⟨10, _⟩ => ⟨S64, .f32⟩
  | .hbm, ⟨11, _⟩ => ⟨S65536x1, .i32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64x1, .f32⟩
  | .hbm, ⟨17, _⟩ => ⟨S64x128, .f32⟩
  | .hbm, ⟨18, _⟩ => ⟨S64x128, .f32⟩
  | .hbm, ⟨19, _⟩ => ⟨S262144x128, .f32⟩
  | .hbm, ⟨20, _⟩ => ⟨S_, .f32⟩
  | .hbm, ⟨21, _⟩ => ⟨S262144, .f32⟩
  | .hbm, ⟨22, _⟩ => ⟨S262144x1, .f32⟩
  | .hbm, ⟨23, _⟩ => ⟨S64x128, .f32⟩
  | .hbm, ⟨24, _⟩ => ⟨S_, .f32⟩
  | .hbm, ⟨25, _⟩ => ⟨S64, .f32⟩
  | .hbm, ⟨26, _⟩ => ⟨S1x64, .f32⟩
  | .hbm, ⟨27, _⟩ => ⟨S262144x64, .f32⟩
  | .hbm, ⟨28, _⟩ => ⟨S262144x64, .f32⟩
  | .hbm, ⟨29, _⟩ => ⟨S262144x64, .f32⟩
  | .hbm, ⟨30, _⟩ => ⟨S_, .f32⟩
  | .hbm, ⟨31, _⟩ => ⟨S262144x128, .f32⟩
  | .hbm, ⟨32, _⟩ => ⟨S262144x128, .f32⟩
  | .hbm, ⟨33, _⟩ => ⟨S128x64, .f32⟩
  | .hbm, ⟨34, _⟩ => ⟨S262144x64, .f32⟩
  | .hbm, ⟨35, _⟩ => ⟨S262144x64, .f32⟩
  | .hbm, ⟨36, _⟩ => ⟨S_, .f32⟩
  | .hbm, ⟨37, _⟩ => ⟨S262144x64, .f32⟩
  | .hbm, ⟨38, _⟩ => ⟨S262144x64, .f32⟩
  | .hbm, ⟨39, _⟩ => ⟨S262144x64, .f32⟩
  | .hbm, ⟨40, _⟩ => ⟨S262144x64, .f32⟩
  | .hbm, ⟨41, _⟩ => ⟨S_, .f32⟩
  | .hbm, ⟨42, _⟩ => ⟨S262144, .f32⟩
  | .hbm, ⟨43, _⟩ => ⟨S_, .f32⟩
  | .hbm, ⟨44, _⟩ => ⟨S262144, .f32⟩
  | .hbm, ⟨45, _⟩ => ⟨S262144, .f32⟩
  | .hbm, ⟨46, _⟩ => ⟨S262144x1, .f32⟩
  | .hbm, ⟨47, _⟩ => ⟨S262144x64, .f32⟩
  | .hbm, ⟨48, _⟩ => ⟨S262144x64, .f32⟩
  | .hbm, ⟨49, _⟩ => ⟨S262144x64, .f32⟩
  | .hbm, ⟨50, _⟩ => ⟨S_, .f32⟩
  | .hbm, ⟨51, _⟩ => ⟨S262144, .f32⟩
  | .hbm, ⟨52, _⟩ => ⟨S262144x1, .f32⟩
  | .hbm, ⟨53, _⟩ => ⟨S262144x64, .f32⟩
  | .hbm, ⟨54, _⟩ => ⟨S262144x64, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]

class Facts₀ : Prop where
  bcast_S_S64x128 : S_.BroadcastsInDim S64x128 (![] : Fin 0 → Fin S64x128.rank)
  bcast_S65536_S65536x1_0 : S65536.BroadcastsInDim S65536x1 (![0] : Fin 1 → Fin S65536x1.rank)
  bcast_S_S65536 : S_.BroadcastsInDim S65536 (![] : Fin 0 → Fin S65536.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  reducesTo_S262144x128_S262144_d1 : S262144x128.ReducesTo [1] S262144
  h_S_ : 0 < S_.numel
  bcast_S262144_S262144x1_0 : S262144.BroadcastsInDim S262144x1 (![0] : Fin 1 → Fin S262144x1.rank)
  reducesTo_S64x128_S64_d1 : S64x128.ReducesTo [1] S64
  bcast_S64_S1x64_1 : S64.BroadcastsInDim S1x64 (![1] : Fin 1 → Fin S1x64.rank)
  bcast_S262144x1_S262144x64_0_1 : S262144x1.BroadcastsInDim S262144x64 (![0, 1] : Fin 2 → Fin S262144x64.rank)
  bcast_S1x64_S262144x64_0_1 : S1x64.BroadcastsInDim S262144x64 (![0, 1] : Fin 2 → Fin S262144x64.rank)
  bcast_S_S262144x128 : S_.BroadcastsInDim S262144x128 (![] : Fin 0 → Fin S262144x128.rank)
  transposes_S64x128_S128x64_1_0 : S64x128.Transposes [1, 0] S128x64
  bcast_S_S262144x64 : S_.BroadcastsInDim S262144x64 (![] : Fin 0 → Fin S262144x64.rank)
  reducesTo_S262144x64_S262144_d1 : S262144x64.ReducesTo [1] S262144
  bcast_S_S262144 : S_.BroadcastsInDim S262144 (![] : Fin 0 → Fin S262144.rank)
  scatter_S64x128_S65536x1_S65536x128_1_0_0_1_wf : ScatterDims.WF S64x128 S65536x1 S65536x128 [1] [0] [0] 1
  scatter_S64_S65536x1_S65536_n_0_0_1_wf : ScatterDims.WF S64 S65536x1 S65536 [] [0] [0] 1
  dot_S262144x128_S128x64_S262144x64_1_0_0_1_n_n_wf : DotDims.WF S262144x128 S128x64 S262144x64 [1] [0] [0] [1] [] []

variable [Facts₀]

def scatter_S64x128_S65536x1_S65536x128_1_0_0_1 : ScatterDims S64x128 S65536x1 S65536x128 where
  updateWindowDims := [1]
  insertedWindowDims := [0]
  scatterDimsToOperandDims := [0]
  indexVectorDim := 1
  wf := scatter_S64x128_S65536x1_S65536x128_1_0_0_1_wf
def scatter_S64_S65536x1_S65536_n_0_0_1 : ScatterDims S64 S65536x1 S65536 where
  updateWindowDims := []
  insertedWindowDims := [0]
  scatterDimsToOperandDims := [0]
  indexVectorDim := 1
  wf := scatter_S64_S65536x1_S65536_n_0_0_1_wf
def dot_S262144x128_S128x64_S262144x64_1_0_0_1_n_n : DotDims S262144x128 S128x64 S262144x64 where
  lhsContracting := [1]
  rhsContracting := [0]
  lhsNonContracting := [0]
  rhsNonContracting := [1]
  lhsBatch := []
  rhsBatch := []
  wf := dot_S262144x128_S128x64_S262144x64_1_0_0_1_n_n_wf

class Facts : Prop extends Facts₀ where

variable [Facts]
-- ==== Proof.Bits.Acc.lean ====
/-
  The first kernel's two scratch accumulators as pure functions of the blocks it has seen.
  After point `n` the first holds, class by class and column by column, the sum over the points `0 … n` of each
  block's class sums (starting from the zero splat the first point stores), and the second the class counts, written
  into every column. The output block is their quotient after the last point, the counts clamped below at one.
-/
import proofs.«401886_j90391881712070_1_alg».proof.Proof.Gen.Kernel.Skeleton

noncomputable section

namespace Cert.Kernel.Hand

open Idealize.ShloMosaic Cert.Kernel Cert.Kernel.Gen

variable {F : FTy → Type} [FloatOps F]

/-- The class-sum accumulator after point `n`, from the embedding blocks `xs` and label blocks `ls` of the points. -/
def accS (xs : ℕ → Vec F S2048x128 .f32) (ls : ℕ → Vec F S2048x1 .i32) : ℕ → Vec F S64x128 .f32
  | 0 => k0_pay4 (xs 0) (ls 0) k0_pay1
  | n + 1 => k0_pay4 (xs (n + 1)) (ls (n + 1)) (accS xs ls n)

/-- The class-count accumulator after point `n`. -/
def accC (ls : ℕ → Vec F S2048x1 .i32) : ℕ → Vec F S64x128 .f32
  | 0 => k0_pay5 (ls 0) k0_pay2
  | n + 1 => k0_pay5 (ls (n + 1)) (accC ls n)

/-- What the last point stores into the output block. -/
def protoBlk (xs : ℕ → Vec F S2048x128 .f32) (ls : ℕ → Vec F S2048x1 .i32) : Vec F S64x128 .f32 :=
  k0_pay6 (accS xs ls 31) (accC ls 31)

end Cert.Kernel.Hand

end
-- ==== Proof.Bits.Bodies.lean ====
/-
  The two kernels' bodies on whole staging and scratch buffers, as triples.
  The first kernel (the prototype accumulator) at the three kinds of grid point: the first (both scratch accumulators are
  stored the zero splat, then the block's contribution is added), a middle one (the contribution is added to what the
  point before left), and the last (after adding, the quotient of the two accumulators is stored into the output block);
  the output block is untouched except at the last point. The second kernel at any point: its two inputs are left as
  found and the output block is stored whole.
-/
import proofs.«401886_j90391881712070_1_alg».proof.Proof.Gen.Kernel.Launch
import proofs.«401886_j90391881712070_1_alg».proof.Proof.Gen.Kernel.Skeleton
import proofs.«401886_j90391881712070_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's first branch condition: the grid coordinate is zero. -/
abbrev condFirst (i : grid0.Coords) : Prop :=
  (Scalar.cmpi .ne (Scalar.extui (Scalar.cmpi .eq (BitVec.ofNat 32 (i 0).val) 0#32)) 0#32) = 1#1

/-- The accesses all go through the whole 64 × 128 (or block-sized) rectangle at the origin. -/
theorem origin2 : (![0, 0] : Fin 2 → Nat) = fun _ => 0 := by
  funext a; match a with | ⟨0, _⟩ => rfl | ⟨1, _⟩ => rfl

/-- One store through the whole rectangle, read back: the stored value, whatever was there. -/
theorem read_store_whole {S : Shape} {e : EltTy} {sp : Space}
    (v : View sig .tc sp S e) (f : v.ty.Contents (Elt F)) (off : Fin S.rank → Nat) (hoff : off = fun _ => 0)
    (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, by
    subst hoff; show y ∈ (Rect.whole S).set; rw [Rect.set_whole]; exact Finset.mem_univ y⟩),
    View.canon_unit_zero hoff]

/-- Two stores through the whole rectangle, read back: the later one's value. -/
theorem read_store_whole₂ {S : Shape} {e : EltTy} {sp : Space}
    (v : View sig .tc sp S e) (f : v.ty.Contents (Elt F)) (off : Fin S.rank → Nat) (hoff : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w := by
  rw [View.read_writes_eq_canon _ _ _ (fun y => ⟨_, List.mem_cons_self, by
    subst hoff; show y ∈ (Rect.whole S).set; rw [Rect.set_whole]; exact Finset.mem_univ y⟩),
    View.canon_cons_unit_zero hoff]

set_option maxHeartbeats 1000000 in
/-- A middle point: neither branch is taken; the two accumulators take the block's contribution, everything else is
    left as found. -/
theorem body0_mid (c : Dev nD) (E : Set ℕ) (i : grid0.Coords)
    (arg1 : Memref sig .tc .vmem S2048x128 .f32) (harg1 : arg1.IsWhole) (arg2 : Memref sig .tc .vmem S2048x1 .i32) (harg2 : arg2.IsWhole)
    (arg3 : Memref sig .tc .vmem S64x128 .f32) (harg3 : arg3.IsWhole) (arg4 : Memref sig .tc .vmem S64x128 .f32) (harg4 : arg4.IsWhole)
    (arg5 : Memref sig .tc .vmem S64x128 .f32) (harg5 : arg5.IsWhole)
    (h1 : ¬ condFirst i) (h2 : ¬ k0_cond2 i = 1#1)
    (x : Vec F S2048x128 .f32) (l : Vec F S2048x1 .i32) (o s4 s5 : Vec F S64x128 .f32) (K : PUnit → sProp 𝕄) :
    iprop(owns (c : Thread nD τ) arg1 fullShare x ∗ owns (c : Thread nD τ) arg2 fullShare l ∗ owns (c : Thread nD τ) arg3 fullShare o
        ∗ owns (c : Thread nD τ) arg4 fullShare s4 ∗ owns (c : Thread nD τ) arg5 fullShare s5
        ∗ (iprop(owns (c : Thread nD τ) arg1 fullShare x ∗ owns (c : Thread nD τ) arg2 fullShare l ∗ owns (c : Thread nD τ) arg3 fullShare o
            ∗ owns (c : Thread nD τ) arg4 fullShare (k0_pay4 x l s4) ∗ owns (c : Thread nD τ) arg5 fullShare (k0_pay5 l s5)) -∗ K ⟨⟩))
      ⊢ wp frame (wpE (defs₀ (F := F)) Variants.none c none) E (cc0__proto_kernel i arg1 harg1 arg2 harg2 arg3 harg3 arg4 harg4 arg5 harg5) K := by
  simp only [cc0__proto_kernel_eq_skeleton]; unfold cc0__proto_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact h1 | exact h2)
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]
  · iexists _; isplitr
    swap; · iexact H4
    ipureintro
    sl_unfold_words
    rw [read_store_whole _ _ _ origin2]
    simp only [View.readAt_eq_ld, hf1, hf2, hf4, View.ld_unit_zero (S := S2048x128) origin2, View.ld_unit_zero (S := S2048x1) origin2, View.ld_unit_zero (S := S64x128) origin2]
  · iexists _; isplitr
    swap; · iexact H5
    ipureintro
    sl_unfold_words
    rw [read_store_whole _ _ _ origin2]
    simp only [View.readAt_eq_ld, hf2, hf5, View.ld_unit_zero (S := S2048x1) origin2, View.ld_unit_zero (S := S64x128) origin2]

set_option maxHeartbeats 1000000 in
/-- The first point: both accumulators are stored the zero splat, then updated; whatever they held before is lost. -/
theorem body0_first (c : Dev nD) (E : Set ℕ) (i : grid0.Coords)
    (arg1 : Memref sig .tc .vmem S2048x128 .f32) (harg1 : arg1.IsWhole) (arg2 : Memref sig .tc .vmem S2048x1 .i32) (harg2 : arg2.IsWhole)
    (arg3 : Memref sig .tc .vmem S64x128 .f32) (harg3 : arg3.IsWhole) (arg4 : Memref sig .tc .vmem S64x128 .f32) (harg4 : arg4.IsWhole)
    (arg5 : Memref sig .tc .vmem S64x128 .f32) (harg5 : arg5.IsWhole)
    (h1 : condFirst i) (h2 : ¬ k0_cond2 i = 1#1)
    (x : Vec F S2048x128 .f32) (l : Vec F S2048x1 .i32) (o : Vec F S64x128 .f32) (K : PUnit → sProp 𝕄) :
    iprop(owns (c : Thread nD τ) arg1 fullShare x ∗ owns (c : Thread nD τ) arg2 fullShare l ∗ owns (c : Thread nD τ) arg3 fullShare o
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare l ∗ owns (c : Thread nD τ) arg3 fullShare o
            ∗ owns (c : Thread nD τ) arg4 fullShare (k0_pay4 x l k0_pay1) ∗ owns (c : Thread nD τ) arg5 fullShare (k0_pay5 l k0_pay2)) -∗ K ⟨⟩))
      ⊢ wp frame (wpE (defs₀ (F := F)) Variants.none c none) E (cc0__proto_kernel i arg1 harg1 arg2 harg2 arg3 harg3 arg4 harg4 arg5 harg5) K := by
  simp only [cc0__proto_kernel_eq_skeleton]; unfold cc0__proto_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  obtain rfl := harg1.eq_unread hf1; obtain rfl := harg2.eq_unread hf2; obtain rfl := harg3.eq_unread hf3
  sl_exec (disch := first | exact h1 | exact h2)
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]
  · iexists _; isplitr
    swap; · iexact H4
    ipureintro
    sl_unfold_words
    rw [read_store_whole₂ _ _ _ origin2]
    simp only [View.readAt_eq_ld, hf1, hf2, View.ld_unit_zero (S := S2048x128) origin2, View.ld_unit_zero (S := S2048x1) origin2, View.ld_unit_zero (S := S64x128) origin2, View.readCov_unit_zero (S := S64x128) _ origin2]
  · iexists _; isplitr
    swap; · iexact H5
    ipureintro
    sl_unfold_words
    rw [read_store_whole₂ _ _ _ origin2]
    simp only [View.readAt_eq_ld, hf2, View.ld_unit_zero (S := S2048x128) origin2, View.ld_unit_zero (S := S2048x1) origin2, View.ld_unit_zero (S := S64x128) origin2, View.readCov_unit_zero (S := S64x128) _ origin2]

set_option maxHeartbeats 1000000 in
/-- The last point: after the update the quotient of the accumulators is stored into the output block. -/
theorem body0_last (c : Dev nD) (E : Set ℕ) (i : grid0.Coords)
    (arg1 : Memref sig .tc .vmem S2048x128 .f32) (harg1 : arg1.IsWhole) (arg2 : Memref sig .tc .vmem S2048x1 .i32) (harg2 : arg2.IsWhole)
    (arg3 : Memref sig .tc .vmem S64x128 .f32) (harg3 : arg3.IsWhole) (arg4 : Memref sig .tc .vmem S64x128 .f32) (harg4 : arg4.IsWhole)
    (arg5 : Memref sig .tc .vmem S64x128 .f32) (harg5 : arg5.IsWhole)
    (h1 : ¬ condFirst i) (h2 : k0_cond2 i = 1#1)
    (x : Vec F S2048x128 .f32) (l : Vec F S2048x1 .i32) (s4 s5 : Vec F S64x128 .f32) (K : PUnit → sProp 𝕄) :
    iprop(owns (c : Thread nD τ) arg1 fullShare x ∗ owns (c : Thread nD τ) arg2 fullShare l ∗ (∃ d, owns (c : Thread nD τ) arg3 fullShare d)
        ∗ owns (c : Thread nD τ) arg4 fullShare s4 ∗ owns (c : Thread nD τ) arg5 fullShare s5
        ∗ (iprop(owns (c : Thread nD τ) arg1 fullShare x ∗ owns (c : Thread nD τ) arg2 fullShare l
            ∗ owns (c : Thread nD τ) arg3 fullShare (k0_pay6 (k0_pay4 x l s4) (k0_pay5 l s5))
            ∗ owns (c : Thread nD τ) arg4 fullShare (k0_pay4 x l s4) ∗ owns (c : Thread nD τ) arg5 fullShare (k0_pay5 l s5)) -∗ K ⟨⟩))
      ⊢ wp frame (wpE (defs₀ (F := F)) Variants.none c none) E (cc0__proto_kernel i arg1 harg1 arg2 harg2 arg3 harg3 arg4 harg4 arg5 harg5) K := by
  simp only [cc0__proto_kernel_eq_skeleton]; unfold cc0__proto_kernel_skel
  unfold owns
  iintro ⟨⟨%f1, %hf1, H1⟩, ⟨%f2, %hf2, H2⟩, ⟨%d3, %f3, -, H3⟩, ⟨%f4, %hf4, H4⟩, ⟨%f5, %hf5, H5⟩, Hk⟩
  obtain rfl := harg1.eq_unread hf1; obtain rfl := harg2.eq_unread hf2
  obtain rfl := harg4.eq_unread hf4; obtain rfl := harg5.eq_unread hf5
  sl_exec (disch := first | exact h1 | exact h2)
  sl_step
  iapply Hk
  isplitl [H1]; · iexists _; isplitr; · ipureintro; exact hf1
                  iexact H1
  isplitl [H2]; · iexists _; isplitr; · ipureintro; exact hf2
                  iexact H2
  isplitl [H3]
  · iexists _; isplitr
    swap; · iexact H3
    ipureintro
    sl_unfold_words
    rw [read_store_whole _ _ _ origin2]
    simp only [View.readAt_eq_ld, hf1, hf2, hf4, hf5, View.ld_unit_zero (S := S2048x128) origin2, View.ld_unit_zero (S := S2048x1) origin2, View.ld_unit_zero (S := S64x128) origin2, View.readCov_unit_zero (S := S64x128) _ origin2]
  isplitl [H4]
  · iexists _; isplitr
    swap; · iexact H4
    ipureintro
    sl_unfold_words
    rw [read_store_whole _ _ _ origin2]
    simp only [View.readAt_eq_ld, hf1, hf2, hf4, View.ld_unit_zero (S := S2048x128) origin2, View.ld_unit_zero (S := S2048x1) origin2, View.ld_unit_zero (S := S64x128) origin2]
  · iexists _; isplitr
    swap; · iexact H5
    ipureintro
    sl_unfold_words
    rw [read_store_whole _ _ _ origin2]
    simp only [View.readAt_eq_ld, hf2, hf5, View.ld_unit_zero (S := S2048x128) origin2, View.ld_unit_zero (S := S2048x1) origin2, View.ld_unit_zero (S := S64x128) origin2]

set_option maxHeartbeats 1000000 in
/-- The second kernel's body on whole staging buffers: the query block and the prototypes are read and left as found,
    the output block is stored whole. -/
theorem body1_run (c : Dev nD) (E : Set ℕ) (i : grid1.Coords)
    (arg1 : Memref sig .tc .vmem S4096x128 .f32) (harg1 : arg1.IsWhole) (arg2 : Memref sig .tc .vmem S64x128 .f32) (harg2 : arg2.IsWhole)
    (arg3 : Memref sig .tc .vmem S4096x64 .f32) (harg3 : arg3.IsWhole)
    (x : Vec F S4096x128 .f32) (p : Vec F S64x128 .f32) (K : PUnit → sProp 𝕄) :
    iprop(owns (c : Thread nD τ) arg1 fullShare x ∗ owns (c : Thread nD τ) arg2 fullShare p ∗ (∃ d, owns (c : Thread nD τ) arg3 fullShare d)
        ∗ (iprop(owns (c : Thread nD τ) arg1 fullShare x ∗ owns (c : Thread nD τ) arg2 fullShare p
            ∗ owns (c : Thread nD τ) arg3 fullShare (k1_pay1 x p)) -∗ K ⟨⟩))
      ⊢ wp frame (wpE (defs₀ (F := F)) Variants.none c none) E (cc1__cdist_softmax_kernel i arg1 harg1 arg2 harg2 arg3 harg3) K := by
  simp only [cc1__cdist_softmax_kernel_eq_skeleton]; unfold cc1__cdist_softmax_kernel_skel
  unfold owns
  iintro ⟨⟨%f1, %hf1, H1⟩, ⟨%f2, %hf2, H2⟩, ⟨%d3, %f3, -, H3⟩, Hk⟩
  obtain rfl := harg1.eq_unread hf1; obtain rfl := harg2.eq_unread hf2
  sl_exec
  sl_step
  iapply Hk
  isplitl [H1]; · iexists _; isplitr; · ipureintro; exact hf1
                  iexact H1
  isplitl [H2]; · iexists _; isplitr; · ipureintro; exact hf2
                  iexact H2
  iexists _; isplitr
  swap; · iexact H3
  ipureintro
  sl_unfold_words
  rw [read_store_whole _ _ _ origin2]
  simp only [View.readAt_eq_ld, hf1, hf2, View.ld_unit_zero (S := S4096x128) origin2, View.ld_unit_zero (S := S64x128) origin2]

end Cert.Kernel.Hand

end
-- ==== Proof.Bits.Data0.lean ====
/-
  The proof data of the two pipelines, at the buffer contents `V` each region is entered with, and the body obligations.

  First pipeline (32 points). Its two inputs' staging buffers hold the point's blocks; the output's staging buffer is
  stored only at the last point and is handed back as found elsewhere. Between points the invariant holds the two scratch
  accumulators at their values after the point before (`accS`, `accC` of the blocks seen so far), the other kernel's
  staging buffers at anything, and the generator register; before the first point the scratch holds anything.
  Second pipeline (64 points): every point stores its output block whole from its two input blocks; nothing is carried.
-/
import proofs.«401886_j90391881712070_1_alg».proof.Proof.Gen.Kernel.Launch
import proofs.«401886_j90391881712070_1_alg».proof.Proof.Gen.Kernel.Skeleton
import proofs.«401886_j90391881712070_1_alg».proof.Proof.Gen.Kernel.Points
import proofs.«401886_j90391881712070_1_alg».proof.Proof.Bits.Acc
import proofs.«401886_j90391881712070_1_alg».proof.Proof.Bits.Bodies
import Idealize.ShloMosaic.Lib.Pipeline.FrameBody
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first pipeline -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The grid point numbered `n` (reduced modulo the 32 points, so that it is total). -/
def pt0 (n : ℕ) : Fin cfg0.N := ⟨n % 32, lt_of_lt_of_eq (Nat.mod_lt _ (by decide)) N_0.symm⟩

theorem pt0_val (t : Fin cfg0.N) : pt0 t.val = t :=
  Fin.ext (Nat.mod_eq_of_lt (lt_of_lt_of_eq t.isLt N_0))

/-- The embedding block and the label block of point `n`. -/
def eblk (c : Dev nD) (n : ℕ) : Vec F S2048x128 .f32 := iblk0 V c 0 (pt0 n)
def lblk (c : Dev nD) (n : ℕ) : Vec F S2048x1 .i32 := iblk0 V c 1 (pt0 n)

theorem eblk_val (c : Dev nD) (t : Fin cfg0.N) : eblk V c t.val = iblk0 V c 0 t := by unfold eblk; rw [pt0_val]
theorem lblk_val (c : Dev nD) (t : Fin cfg0.N) : lblk V c t.val = iblk0 V c 1 t := by unfold lblk; rw [pt0_val]

/-- The scratch operands as memrefs. -/
abbrev scM4 : Memref sig .tc .vmem S64x128 .f32 := Memref.whole cc0_scratch0
abbrev scM5 : Memref sig .tc .vmem S64x128 .f32 := Memref.whole cc0_scratch1

/-- The second kernel's staging buffers, which the first kernel never touches, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the region hands the first kernel besides its windows: the two scratch buffers and the other kernel's staging
    buffers at anything, and the generator register. -/
theorem PhiA0_eq (c : Dev nD) :
    (Pipeline.ΦA spec0 c : sProp 𝕄)
      = iprop(((∃ d, owns (c : Thread nD τ) scM4 fullShare d) ∗ (∃ d, owns (c : Thread nD τ) scM5 fullShare d) ∗ rest0 (F := F) c) ∗ (∃ r, prngReg c r)) := by
  unfold Pipeline.ΦA rest0; rw [scopedRest0_eq]; simp only [scM4, scM5, owns_whole]; rfl

/-- The invariant before point `n`. -/
def Phi0 (c : Dev nD) : ℕ → sProp 𝕄
  | 0 => Pipeline.ΦA spec0 c
  | n + 1 => iprop((owns (c : Thread nD τ) scM4 fullShare (accS (eblk V c) (lblk V c) n) ∗ owns (c : Thread nD τ) scM5 fullShare (accC (lblk V c) n) ∗ rest0 (F := F) c) ∗ (∃ r, prngReg c r))

theorem Phi0_zero (c : Dev nD) : Phi0 V c 0 = Pipeline.ΦA spec0 c := rfl
theorem Phi0_succ' (c : Dev nD) (n : ℕ) :
    Phi0 V c (n + 1) = iprop((owns (c : Thread nD τ) scM4 fullShare (accS (eblk V c) (lblk V c) n) ∗ owns (c : Thread nD τ) scM5 fullShare (accC (lblk V c) n) ∗ rest0 (F := F) c) ∗ (∃ r, prngReg c r)) := rfl

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => protoBlk (eblk V c) (lblk V c)
  Φ t := Phi0 V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = protoBlk (eblk V c) (lblk V c) := by dsimp only [dat0]

/-- Each input's current staging buffer holds the point's block, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-! ## The branch conditions and the idle points, decided over the grid -/

theorem hfirst0 : ∀ t : Fin cfg0.N, condFirst (grid0.coords t) ↔ t.val = 0 :=
  (by decide +kernel : ∀ t : Fin grid0.N, condFirst (grid0.coords t) ↔ t.val = 0)
theorem hlast0 : ∀ t : Fin cfg0.N, k0_cond2 (grid0.coords t) = 1#1 ↔ t.val = 31 :=
  (by decide +kernel : ∀ t : Fin grid0.N, k0_cond2 (grid0.coords t) = 1#1 ↔ t.val = 31)
theorem live0_0 : ∀ t : Fin cfg0.N, cfg0.idle 0 (grid0.coords t) = false := by decide +kernel
theorem live0_1 : ∀ t : Fin cfg0.N, cfg0.idle 1 (grid0.coords t) = false := by decide +kernel
theorem idle0_2 : ∀ t : Fin cfg0.N, t.val ≠ 31 → cfg0.idle 2 (grid0.coords t) = true := by decide +kernel
theorem noflush0_2 (t : Fin cfg0.N) (h : t.val ≠ 31) : (cfg0.win 2).flush t = false := by
  cases hf : (cfg0.win 2).flush t
  · rfl
  · exact absurd (by have := (flush0_2 t).mp hf; have hN := lt_of_lt_of_eq t.isLt N_0; omega) h
theorem flush0_2_last (t : Fin cfg0.N) (h : t.val = 31) : (cfg0.win 2).flush t = true :=
  (flush0_2 t).mpr (by omega)

/-- At a point that writes the block back the post is the plain one. -/
theorem leavesExact_of_flush {cfg : Cfg sig Λ₀} {c : Dev nD} (dat : Dat τ (Elt F) Unit ℕ (UR sig nD τ) ℕ cfg c) (w : Fin cfg.W) (t : Fin cfg.N)
    (hf : (cfg.win w).flush t = true) :
    dat.leavesExact w t = owns (c : Thread nD τ) ((cfg.win w).stage (cfg.slots t w)) fullShare (dat.after w t) := by
  unfold Dat.leavesExact; cases cfg.idle w (cfg.grid.coords t) <;> simp only [hf]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t)

theorem Phi0_castSucc (c : Dev nD) (t : Fin cfg0.N) : (dat0 V c).Φ t.castSucc = Phi0 V c t.val := by
  dsimp only [dat0]; simp only [Fin.coe_castSucc]
theorem Phi0_succ (c : Dev nD) (t : Fin cfg0.N) : (dat0 V c).Φ t.succ = Phi0 V c (t.val + 1) := by
  dsimp only [dat0]; simp only [Fin.val_succ]

set_option maxHeartbeats 1600000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl, Phi0_castSucc, Phi0_succ]
  rw [show (dat0 V c).leavesExact 0 t = owns (c : Thread nD τ) (st0_0 t) fullShare ((dat0 V c).after 0 t) from by
    unfold Dat.leavesExact; rw [live0_0 t], after0_0]
  rw [show (dat0 V c).leavesExact 1 t = owns (c : Thread nD τ) (st0_1 t) fullShare ((dat0 V c).after 1 t) from by
    unfold Dat.leavesExact; rw [live0_1 t], after0_1]
  have hN : t.val < 32 := lt_of_lt_of_eq t.isLt N_0
  by_cases hz : t.val = 0
  · -- the first point
    have hl : t.val ≠ 31 := by omega
    rw [Dat.leavesExact_idle (dat0 V c) 2 t (idle0_2 t hl) (noflush0_2 t hl)]
    rw [hz, Phi0_zero, Phi0_succ', PhiA0_eq]
    rw [show accS (eblk V c) (lblk V c) 0 = k0_pay4 (iblk0 V c 0 t) (iblk0 V c 1 t) k0_pay1 from by
      unfold accS; rw [← eblk_val V c t, ← lblk_val V c t, hz]]
    rw [show accC (lblk V c) 0 = k0_pay5 (iblk0 V c 1 t) k0_pay2 from by
      unfold accC; rw [← lblk_val V c t, hz]]
    iintro ⟨⟨⟨HS4, HS5, Hr⟩, Hg⟩, Ho, ⟨%d0, H0⟩, ⟨%d1, H1⟩, ⟨%d2, H2⟩⟩
    iapply (body0_first c Set.univ (grid0.coords t) _ _ _ _ _ _ _ _ _ _ ((hfirst0 t).mpr hz) (fun h => hl ((hlast0 t).mp h))
      (iblk0 V c 0 t) (iblk0 V c 1 t) ((dat0 V c).before 2 t d2) _)
    isplitl [H0]; · iexact H0
    isplitl [H1]; · iexact H1
    isplitl [H2]; · iexact H2
    isplitl [HS4]; · iexact HS4
    isplitl [HS5]; · iexact HS5
    iintro ⟨H0, H1, H2, HS4, HS5⟩
    isplitl [HS4 HS5 Hr Hg]
    · isplitr [Hg]
      · isplitl [HS4]; · iexact HS4
        isplitl [HS5]; · iexact HS5
        iexact Hr
      iexact Hg
    isplitl [Ho]; · iexact Ho
    isplitl [H0]; · iexact H0
    isplitl [H1]; · iexact H1
    iexists _; iexact H2
  · obtain ⟨n, hn⟩ : ∃ n, t.val = n + 1 := ⟨t.val - 1, by omega⟩
    have hS : accS (eblk V c) (lblk V c) (n + 1) = k0_pay4 (iblk0 V c 0 t) (iblk0 V c 1 t) (accS (eblk V c) (lblk V c) n) := by
      rw [← eblk_val V c t, ← lblk_val V c t, hn]; rfl
    have hC : accC (lblk V c) (n + 1) = k0_pay5 (iblk0 V c 1 t) (accC (lblk V c) n) := by
      rw [← lblk_val V c t, hn]; rfl
    rw [hn, Phi0_succ', Phi0_succ', hS, hC]
    by_cases hl : t.val = 31
    · -- the last point
      rw [leavesExact_of_flush (dat0 V c) 2 t (flush0_2_last t hl), after0_2]
      have hn30 : n = 30 := by omega
      rw [show protoBlk (eblk V c) (lblk V c)
          = k0_pay6 (k0_pay4 (iblk0 V c 0 t) (iblk0 V c 1 t) (accS (eblk V c) (lblk V c) n)) (k0_pay5 (iblk0 V c 1 t) (accC (lblk V c) n)) from by
        unfold protoBlk; rw [← hS, ← hC, hn30]]
      iintro ⟨⟨⟨HS4, HS5, Hr⟩, Hg⟩, Ho, ⟨%d0, H0⟩, ⟨%d1, H1⟩, ⟨%d2, H2⟩⟩
      iapply (body0_last c Set.univ (grid0.coords t) _ _ _ _ _ _ _ _ _ _ (fun h => hz ((hfirst0 t).mp h)) ((hlast0 t).mpr hl)
        (iblk0 V c 0 t) (iblk0 V c 1 t) (accS (eblk V c) (lblk V c) n) (accC (lblk V c) n) _)
      isplitl [H0]; · iexact H0
      isplitl [H1]; · iexact H1
      isplitl [H2]; · iexists _; iexact H2
      isplitl [HS4]; · iexact HS4
      isplitl [HS5]; · iexact HS5
      iintro ⟨H0, H1, H2, HS4, HS5⟩
      isplitl [HS4 HS5 Hr Hg]
      · isplitr [Hg]
        · isplitl [HS4]; · iexact HS4
          isplitl [HS5]; · iexact HS5
          iexact Hr
        iexact Hg
      isplitl [Ho]; · iexact Ho
      isplitl [H0]; · iexact H0
      isplitl [H1]; · iexact H1
      iexact H2
    · -- a middle point
      rw [Dat.leavesExact_idle (dat0 V c) 2 t (idle0_2 t hl) (noflush0_2 t hl)]
      iintro ⟨⟨⟨HS4, HS5, Hr⟩, Hg⟩, Ho, ⟨%d0, H0⟩, ⟨%d1, H1⟩, ⟨%d2, H2⟩⟩
      iapply (body0_mid c Set.univ (grid0.coords t) _ _ _ _ _ _ _ _ _ _ (fun h => hz ((hfirst0 t).mp h)) (fun h => hl ((hlast0 t).mp h))
        (iblk0 V c 0 t) (iblk0 V c 1 t) ((dat0 V c).before 2 t d2) (accS (eblk V c) (lblk V c) n) (accC (lblk V c) n) _)
      isplitl [H0]; · iexact H0
      isplitl [H1]; · iexact H1
      isplitl [H2]; · iexact H2
      isplitl [HS4]; · iexact HS4
      isplitl [HS5]; · iexact HS5
      iintro ⟨H0, H1, H2, HS4, HS5⟩
      isplitl [HS4 HS5 Hr Hg]
      · isplitr [Hg]
        · isplitl [HS4]; · iexact HS4
          isplitl [HS5]; · iexact HS5
          iexact Hr
        iexact Hg
      isplitl [Ho]; · iexact Ho
      isplitl [H0]; · iexact H0
      isplitl [H1]; · iexact H1
      iexists _; iexact H2

/-- The library's body obligation for the first pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Bits.Data1.lean ====
/-
  The proof data of the second pipeline (64 points), at the buffer contents `V` the region is entered with, and its body
  obligation: every point stores its output block whole from the query block and the prototypes; nothing is carried between
  points, and the invariant is the untouched scoped rest with the generator register.
-/
import proofs.«401886_j90391881712070_1_alg».proof.Proof.Gen.Kernel.Launch
import proofs.«401886_j90391881712070_1_alg».proof.Proof.Gen.Kernel.Skeleton
import proofs.«401886_j90391881712070_1_alg».proof.Proof.Gen.Kernel.Points
import proofs.«401886_j90391881712070_1_alg».proof.Proof.Bits.Acc
import proofs.«401886_j90391881712070_1_alg».proof.Proof.Bits.Bodies
import Idealize.ShloMosaic.Lib.Pipeline.FrameBody
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (iblk1 V c 0 t) (iblk1 V c 1 t) := by dsimp only [dat1]

/-- Each input's current staging buffer holds the point's block, fetched there or not (the prototypes are fetched at the
    first point only: their block index never moves). -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (body1_run c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for the second pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Bits.Run.lean ====
/-
  The whole program's run: the reshape of the labels, the first pipeline, the second pipeline.
  The buffer contents at each boundary are a fold from the launch memory: after the host reshape, after the first
  pipeline (its output array at what its write-backs leave, every other buffer as entered), after the second. Each pipeline
  is a region record over the thread state "every unscoped buffer at the boundary's contents, the generator register at
  some state, nothing owed"; the launch theorem for a list of segments then gives: every weakly fair execution terminates,
  the result array ends at what the second pipeline's write-backs leave, and the three arguments end as launched.
-/
import proofs.«401886_j90391881712070_1_alg».proof.Proof.Gen.Kernel.Launch
import proofs.«401886_j90391881712070_1_alg».proof.Proof.Gen.Kernel.Skeleton
import proofs.«401886_j90391881712070_1_alg».proof.Proof.Gen.Kernel.Points
import proofs.«401886_j90391881712070_1_alg».proof.Proof.Bits.Data0
import proofs.«401886_j90391881712070_1_alg».proof.Proof.Bits.Data1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch, -/
abbrev W0 : Dev nD → Valuation τ sig (Elt F) := fun c b => m (c, b)
/-- after the host reshape of the labels (the first pipeline's entry), -/
abbrev W1 : Dev nD → Valuation τ sig (Elt F) := fun c => StableHlo.after hostOps0 (W0 m c)
/-- the same read at the TensorCore's references. -/
abbrev U1 : (c : Dev nD) → (b : Ref sig .tc) → Buf (Elt F) ((c : Thread nD τ).loc b) := fun c b => W1 m c b

/-- At the first pipeline's exit: its arrays at what it leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- At the second pipeline's exit. -/
def W3 (c : Dev nD) : Valuation τ sig (Elt F) :=
  Pipeline.withArrays spec1 c (W2 m c) fun w => (dat1 (U2 m) c).arrAt w cfg1.N
theorem W3_arr (c : Dev nD) (w : Fin cfg1.W) :
    W3 m c (Proc.devRef .tc (Pipeline.arrRef spec1 w)) = (dat1 (U2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev U3 : (c : Dev nD) → (b : Ref sig .tc) → Buf (Elt F) ((c : Thread nD τ).loc b) := fun c b => W3 m c b
theorem hF1 (c : Dev nD) (w : Fin cfg1.W) : (dat1 (U2 m) c).arrAt w cfg1.N = U3 m c (Pipeline.arrRef spec1 w) :=
  (W3_arr m c w).symm
theorem hrest1 (c : Dev nD) : ∀ b, b ∉ Finset.univ.image (Pipeline.arrRef spec1) → U3 m c b = U2 m c b :=
  fun b hb => W3_of_ne m c b fun w e => hb (Finset.mem_image.mpr ⟨w, Finset.mem_univ _, e⟩)

/-- The host reshape writes only the label column. -/
theorem W1_of_ne (c : Dev nD) (b : Ref sig .tc) (hb : b ≠ main_v0) : W1 m c (Proc.devRef .tc b) = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-! ### The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (U1 m) c).arrAt_in 0 rfl _).trans (A_eq0 (U1 m) c 0))
    _ = m ((c : Thread nD τ).loc main_arg0) := W1_of_ne m c main_arg0 (by decide)
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = m ((c : Thread nD τ).loc main_arg1) := W1_of_ne m c main_arg1 (by decide)
theorem W3_main_arg2 (c : Dev nD) : W3 m c (Proc.devRef .tc main_arg2) = m ((c : Thread nD τ).loc main_arg2) :=
  calc W3 m c (Proc.devRef .tc main_arg2)
    _ = W2 m c (Proc.devRef .tc main_arg2) := (W3_arr m c 0).trans (((dat1 (U2 m) c).arrAt_in 0 rfl _).trans (A_eq1 (U2 m) c 0))
    _ = W1 m c (Proc.devRef .tc main_arg2) := W2_of_ne m c main_arg2 (by decide)
    _ = m ((c : Thread nD τ).loc main_arg2) := W1_of_ne m c main_arg2 (by decide)

/-- What the second pipeline finds in its two input arrays: the queries as launched, the prototypes as the first
    pipeline left them; and what the first finds in its embeddings' array: the embeddings as launched. -/
theorem U2_main_arg2 (c : Dev nD) : U2 m c main_arg2 = m ((c : Thread nD τ).loc main_arg2) :=
  (W2_of_ne m c main_arg2 (by decide)).trans (W1_of_ne m c main_arg2 (by decide))
theorem U2_main_v1 (c : Dev nD) : U2 m c main_v1 = (dat0 (U1 m) c).arrAt 2 cfg0.N := W2_arr m c 2
theorem U1_main_arg0 (c : Dev nD) : U1 m c main_arg0 = m ((c : Thread nD τ).loc main_arg0) := W1_of_ne m c main_arg0 (by decide)

/-! ## The proof data family and the thread state -/

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U2 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor

/-- The host reshape as a segment. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W3 m c) ∗ ∃ r, prngReg c r)

/-! ## The pipelines as segments -/

set_option backward.isDefEq.respectTransparency.types false in
/-- The first pipeline over the thread state: entered from every unscoped buffer at `W1`, left at `W2`. Its arrays are
    split out of the unscoped buffers and put back at the exit contents; the generator register and the scoped rest go
    into the invariant, and come back out of its last value, the accumulators' contents forgotten. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Phi0 (U1 m) c (31 + 1) from rfl, Phi0_succ',
      show (Pipeline.scopedRest (Pipeline.pin (pcfgs (F := F)) adm 0).spec c : sProp 𝕄) = _ from scopedRest0_eq c]
    unfold rest0
    iintro ⟨⟨HS4, HS5, Hr⟩, Hp⟩
    isplitl [Hp]; · iexact Hp
    isplitr; · iempintro
    isplitl [HS4]; · iexists _; rw [← owns_whole]; iexact HS4
    isplitl [HS5]; · iexists _; rw [← owns_whole]; iexact HS5
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pipeline over the thread state: entered from every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U2 m c) (U3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg0 m), .region (reg0 m), .region (reg1 m) ]

theorem main_run (c : Dev nD) : main (F := F) c = Pipeline.Seg.run (segs m) := (main_chain c).trans (by chain_rfl)

set_option backward.isDefEq.respectTransparency.types false in
/-- THE RUN. From any memory with zero counters every weakly fair execution of the program terminates; the result array
    ends at what the second pipeline's write-backs leave (`Dat.arrAt` of its proof data, entered with the queries as
    launched and the prototypes the first pipeline left), and the three arguments end as launched. -/
theorem run_main : θ_run defs (onTc (τ := τ) (main (F := F))) ⟨m, fun _ => 0, ρ⟩ (fun r => ∀ c : Dev nD,
      r.2.mem ((c.tc : Thread nD τ).loc main_v2) = (dat1 (U2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v2 (by decide))).trans (W3_arr m c 2),
       (h c _ (mem_uc main_arg0 (by decide))).trans (W3_main_arg0 m c),
       (h c _ (mem_uc main_arg1 (by decide))).trans (W3_main_arg1 m c),
       (h c _ (mem_uc main_arg2 (by decide))).trans (W3_main_arg2 m c)⟩)

end Cert.Kernel.Hand

end
-- ==== Proof.Acc.lean ====
/-
  The first kernel's two scratch accumulators as pure functions of the blocks it has seen.
  After point `n` the first holds, class by class and column by column, the sum over the points `0 … n` of each
  block's class sums (starting from the zero splat the first point stores), and the second the class counts, written
  into every column. The output block is their quotient after the last point, the counts clamped below at one.
-/
import proofs.«401886_j90391881712070_1_alg».proof.Proof.Gen.KernelIdeal.Skeleton

noncomputable section

namespace Cert.KernelIdeal.Hand

open Idealize.ShloMosaic Cert.KernelIdeal Cert.KernelIdeal.Gen

variable {F : FTy → Type} [FloatOps F]

/-- The class-sum accumulator after point `n`, from the embedding blocks `xs` and label blocks `ls` of the points. -/
def accS (xs : ℕ → Vec F S2048x128 .f32) (ls : ℕ → Vec F S2048x1 .i32) : ℕ → Vec F S64x128 .f32
  | 0 => k0_pay4 (xs 0) (ls 0) k0_pay1
  | n + 1 => k0_pay4 (xs (n + 1)) (ls (n + 1)) (accS xs ls n)

/-- The class-count accumulator after point `n`. -/
def accC (ls : ℕ → Vec F S2048x1 .i32) : ℕ → Vec F S64x128 .f32
  | 0 => k0_pay5 (ls 0) k0_pay2
  | n + 1 => k0_pay5 (ls (n + 1)) (accC ls n)

/-- What the last point stores into the output block. -/
def protoBlk (xs : ℕ → Vec F S2048x128 .f32) (ls : ℕ → Vec F S2048x1 .i32) : Vec F S64x128 .f32 :=
  k0_pay6 (accS xs ls 31) (accC ls 31)

end Cert.KernelIdeal.Hand

end
-- ==== Proof.Bodies.lean ====
/-
  The two kernels' bodies on whole staging and scratch buffers, as triples.
  The first kernel (the prototype accumulator) at the three kinds of grid point: the first (both scratch accumulators are
  stored the zero splat, then the block's contribution is added), a middle one (the contribution is added to what the
  point before left), and the last (after adding, the quotient of the two accumulators is stored into the output block);
  the output block is untouched except at the last point. The second kernel at any point: its two inputs are left as
  found and the output block is stored whole.
-/
import proofs.«401886_j90391881712070_1_alg».proof.Proof.Gen.KernelIdeal.Launch
import proofs.«401886_j90391881712070_1_alg».proof.Proof.Gen.KernelIdeal.Skeleton
import proofs.«401886_j90391881712070_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's first branch condition: the grid coordinate is zero. -/
abbrev condFirst (i : grid0.Coords) : Prop :=
  (Scalar.cmpi .ne (Scalar.extui (Scalar.cmpi .eq (BitVec.ofNat 32 (i 0).val) 0#32)) 0#32) = 1#1

/-- The accesses all go through the whole 64 × 128 (or block-sized) rectangle at the origin. -/
theorem origin2 : (![0, 0] : Fin 2 → Nat) = fun _ => 0 := by
  funext a; match a with | ⟨0, _⟩ => rfl | ⟨1, _⟩ => rfl

/-- One store through the whole rectangle, read back: the stored value, whatever was there. -/
theorem read_store_whole {S : Shape} {e : EltTy} {sp : Space}
    (v : View sig .tc sp S e) (f : v.ty.Contents (Elt F)) (off : Fin S.rank → Nat) (hoff : off = fun _ => 0)
    (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, by
    subst hoff; show y ∈ (Rect.whole S).set; rw [Rect.set_whole]; exact Finset.mem_univ y⟩),
    View.canon_unit_zero hoff]

/-- Two stores through the whole rectangle, read back: the later one's value. -/
theorem read_store_whole₂ {S : Shape} {e : EltTy} {sp : Space}
    (v : View sig .tc sp S e) (f : v.ty.Contents (Elt F)) (off : Fin S.rank → Nat) (hoff : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w := by
  rw [View.read_writes_eq_canon _ _ _ (fun y => ⟨_, List.mem_cons_self, by
    subst hoff; show y ∈ (Rect.whole S).set; rw [Rect.set_whole]; exact Finset.mem_univ y⟩),
    View.canon_cons_unit_zero hoff]

set_option maxHeartbeats 1000000 in
/-- A middle point: neither branch is taken; the two accumulators take the block's contribution, everything else is
    left as found. -/
theorem body0_mid (c : Dev nD) (E : Set ℕ) (i : grid0.Coords)
    (arg1 : Memref sig .tc .vmem S2048x128 .f32) (harg1 : arg1.IsWhole) (arg2 : Memref sig .tc .vmem S2048x1 .i32) (harg2 : arg2.IsWhole)
    (arg3 : Memref sig .tc .vmem S64x128 .f32) (harg3 : arg3.IsWhole) (arg4 : Memref sig .tc .vmem S64x128 .f32) (harg4 : arg4.IsWhole)
    (arg5 : Memref sig .tc .vmem S64x128 .f32) (harg5 : arg5.IsWhole)
    (h1 : ¬ condFirst i) (h2 : ¬ k0_cond2 i = 1#1)
    (x : Vec F S2048x128 .f32) (l : Vec F S2048x1 .i32) (o s4 s5 : Vec F S64x128 .f32) (K : PUnit → sProp 𝕄) :
    iprop(owns (c : Thread nD τ) arg1 fullShare x ∗ owns (c : Thread nD τ) arg2 fullShare l ∗ owns (c : Thread nD τ) arg3 fullShare o
        ∗ owns (c : Thread nD τ) arg4 fullShare s4 ∗ owns (c : Thread nD τ) arg5 fullShare s5
        ∗ (iprop(owns (c : Thread nD τ) arg1 fullShare x ∗ owns (c : Thread nD τ) arg2 fullShare l ∗ owns (c : Thread nD τ) arg3 fullShare o
            ∗ owns (c : Thread nD τ) arg4 fullShare (k0_pay4 x l s4) ∗ owns (c : Thread nD τ) arg5 fullShare (k0_pay5 l s5)) -∗ K ⟨⟩))
      ⊢ wp frame (wpE (defs₀ (F := F)) Variants.none c none) E (cc0__proto_kernel i arg1 harg1 arg2 harg2 arg3 harg3 arg4 harg4 arg5 harg5) K := by
  simp only [cc0__proto_kernel_eq_skeleton]; unfold cc0__proto_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact h1 | exact h2)
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]
  · iexists _; isplitr
    swap; · iexact H4
    ipureintro
    sl_unfold_words
    rw [read_store_whole _ _ _ origin2]
    simp only [View.readAt_eq_ld, hf1, hf2, hf4, View.ld_unit_zero (S := S2048x128) origin2, View.ld_unit_zero (S := S2048x1) origin2, View.ld_unit_zero (S := S64x128) origin2]
  · iexists _; isplitr
    swap; · iexact H5
    ipureintro
    sl_unfold_words
    rw [read_store_whole _ _ _ origin2]
    simp only [View.readAt_eq_ld, hf2, hf5, View.ld_unit_zero (S := S2048x1) origin2, View.ld_unit_zero (S := S64x128) origin2]

set_option maxHeartbeats 1000000 in
/-- The first point: both accumulators are stored the zero splat, then updated; whatever they held before is lost. -/
theorem body0_first (c : Dev nD) (E : Set ℕ) (i : grid0.Coords)
    (arg1 : Memref sig .tc .vmem S2048x128 .f32) (harg1 : arg1.IsWhole) (arg2 : Memref sig .tc .vmem S2048x1 .i32) (harg2 : arg2.IsWhole)
    (arg3 : Memref sig .tc .vmem S64x128 .f32) (harg3 : arg3.IsWhole) (arg4 : Memref sig .tc .vmem S64x128 .f32) (harg4 : arg4.IsWhole)
    (arg5 : Memref sig .tc .vmem S64x128 .f32) (harg5 : arg5.IsWhole)
    (h1 : condFirst i) (h2 : ¬ k0_cond2 i = 1#1)
    (x : Vec F S2048x128 .f32) (l : Vec F S2048x1 .i32) (o : Vec F S64x128 .f32) (K : PUnit → sProp 𝕄) :
    iprop(owns (c : Thread nD τ) arg1 fullShare x ∗ owns (c : Thread nD τ) arg2 fullShare l ∗ owns (c : Thread nD τ) arg3 fullShare o
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare l ∗ owns (c : Thread nD τ) arg3 fullShare o
            ∗ owns (c : Thread nD τ) arg4 fullShare (k0_pay4 x l k0_pay1) ∗ owns (c : Thread nD τ) arg5 fullShare (k0_pay5 l k0_pay2)) -∗ K ⟨⟩))
      ⊢ wp frame (wpE (defs₀ (F := F)) Variants.none c none) E (cc0__proto_kernel i arg1 harg1 arg2 harg2 arg3 harg3 arg4 harg4 arg5 harg5) K := by
  simp only [cc0__proto_kernel_eq_skeleton]; unfold cc0__proto_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  obtain rfl := harg1.eq_unread hf1; obtain rfl := harg2.eq_unread hf2; obtain rfl := harg3.eq_unread hf3
  sl_exec (disch := first | exact h1 | exact h2)
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]
  · iexists _; isplitr
    swap; · iexact H4
    ipureintro
    sl_unfold_words
    rw [read_store_whole₂ _ _ _ origin2]
    simp only [View.readAt_eq_ld, hf1, hf2, View.ld_unit_zero (S := S2048x128) origin2, View.ld_unit_zero (S := S2048x1) origin2, View.ld_unit_zero (S := S64x128) origin2, View.readCov_unit_zero (S := S64x128) _ origin2]
  · iexists _; isplitr
    swap; · iexact H5
    ipureintro
    sl_unfold_words
    rw [read_store_whole₂ _ _ _ origin2]
    simp only [View.readAt_eq_ld, hf2, View.ld_unit_zero (S := S2048x128) origin2, View.ld_unit_zero (S := S2048x1) origin2, View.ld_unit_zero (S := S64x128) origin2, View.readCov_unit_zero (S := S64x128) _ origin2]

set_option maxHeartbeats 1000000 in
/-- The last point: after the update the quotient of the accumulators is stored into the output block. -/
theorem body0_last (c : Dev nD) (E : Set ℕ) (i : grid0.Coords)
    (arg1 : Memref sig .tc .vmem S2048x128 .f32) (harg1 : arg1.IsWhole) (arg2 : Memref sig .tc .vmem S2048x1 .i32) (harg2 : arg2.IsWhole)
    (arg3 : Memref sig .tc .vmem S64x128 .f32) (harg3 : arg3.IsWhole) (arg4 : Memref sig .tc .vmem S64x128 .f32) (harg4 : arg4.IsWhole)
    (arg5 : Memref sig .tc .vmem S64x128 .f32) (harg5 : arg5.IsWhole)
    (h1 : ¬ condFirst i) (h2 : k0_cond2 i = 1#1)
    (x : Vec F S2048x128 .f32) (l : Vec F S2048x1 .i32) (s4 s5 : Vec F S64x128 .f32) (K : PUnit → sProp 𝕄) :
    iprop(owns (c : Thread nD τ) arg1 fullShare x ∗ owns (c : Thread nD τ) arg2 fullShare l ∗ (∃ d, owns (c : Thread nD τ) arg3 fullShare d)
        ∗ owns (c : Thread nD τ) arg4 fullShare s4 ∗ owns (c : Thread nD τ) arg5 fullShare s5
        ∗ (iprop(owns (c : Thread nD τ) arg1 fullShare x ∗ owns (c : Thread nD τ) arg2 fullShare l
            ∗ owns (c : Thread nD τ) arg3 fullShare (k0_pay6 (k0_pay4 x l s4) (k0_pay5 l s5))
            ∗ owns (c : Thread nD τ) arg4 fullShare (k0_pay4 x l s4) ∗ owns (c : Thread nD τ) arg5 fullShare (k0_pay5 l s5)) -∗ K ⟨⟩))
      ⊢ wp frame (wpE (defs₀ (F := F)) Variants.none c none) E (cc0__proto_kernel i arg1 harg1 arg2 harg2 arg3 harg3 arg4 harg4 arg5 harg5) K := by
  simp only [cc0__proto_kernel_eq_skeleton]; unfold cc0__proto_kernel_skel
  unfold owns
  iintro ⟨⟨%f1, %hf1, H1⟩, ⟨%f2, %hf2, H2⟩, ⟨%d3, %f3, -, H3⟩, ⟨%f4, %hf4, H4⟩, ⟨%f5, %hf5, H5⟩, Hk⟩
  obtain rfl := harg1.eq_unread hf1; obtain rfl := harg2.eq_unread hf2
  obtain rfl := harg4.eq_unread hf4; obtain rfl := harg5.eq_unread hf5
  sl_exec (disch := first | exact h1 | exact h2)
  sl_step
  iapply Hk
  isplitl [H1]; · iexists _; isplitr; · ipureintro; exact hf1
                  iexact H1
  isplitl [H2]; · iexists _; isplitr; · ipureintro; exact hf2
                  iexact H2
  isplitl [H3]
  · iexists _; isplitr
    swap; · iexact H3
    ipureintro
    sl_unfold_words
    rw [read_store_whole _ _ _ origin2]
    simp only [View.readAt_eq_ld, hf1, hf2, hf4, hf5, View.ld_unit_zero (S := S2048x128) origin2, View.ld_unit_zero (S := S2048x1) origin2, View.ld_unit_zero (S := S64x128) origin2, View.readCov_unit_zero (S := S64x128) _ origin2]
  isplitl [H4]
  · iexists _; isplitr
    swap; · iexact H4
    ipureintro
    sl_unfold_words
    rw [read_store_whole _ _ _ origin2]
    simp only [View.readAt_eq_ld, hf1, hf2, hf4, View.ld_unit_zero (S := S2048x128) origin2, View.ld_unit_zero (S := S2048x1) origin2, View.ld_unit_zero (S := S64x128) origin2]
  · iexists _; isplitr
    swap; · iexact H5
    ipureintro
    sl_unfold_words
    rw [read_store_whole _ _ _ origin2]
    simp only [View.readAt_eq_ld, hf2, hf5, View.ld_unit_zero (S := S2048x128) origin2, View.ld_unit_zero (S := S2048x1) origin2, View.ld_unit_zero (S := S64x128) origin2]

set_option maxHeartbeats 1000000 in
/-- The second kernel's body on whole staging buffers: the query block and the prototypes are read and left as found,
    the output block is stored whole. -/
theorem body1_run (c : Dev nD) (E : Set ℕ) (i : grid1.Coords)
    (arg1 : Memref sig .tc .vmem S4096x128 .f32) (harg1 : arg1.IsWhole) (arg2 : Memref sig .tc .vmem S64x128 .f32) (harg2 : arg2.IsWhole)
    (arg3 : Memref sig .tc .vmem S4096x64 .f32) (harg3 : arg3.IsWhole)
    (x : Vec F S4096x128 .f32) (p : Vec F S64x128 .f32) (K : PUnit → sProp 𝕄) :
    iprop(owns (c : Thread nD τ) arg1 fullShare x ∗ owns (c : Thread nD τ) arg2 fullShare p ∗ (∃ d, owns (c : Thread nD τ) arg3 fullShare d)
        ∗ (iprop(owns (c : Thread nD τ) arg1 fullShare x ∗ owns (c : Thread nD τ) arg2 fullShare p
            ∗ owns (c : Thread nD τ) arg3 fullShare (k1_pay1 x p)) -∗ K ⟨⟩))
      ⊢ wp frame (wpE (defs₀ (F := F)) Variants.none c none) E (cc1__cdist_softmax_kernel i arg1 harg1 arg2 harg2 arg3 harg3) K := by
  simp only [cc1__cdist_softmax_kernel_eq_skeleton]; unfold cc1__cdist_softmax_kernel_skel
  unfold owns
  iintro ⟨⟨%f1, %hf1, H1⟩, ⟨%f2, %hf2, H2⟩, ⟨%d3, %f3, -, H3⟩, Hk⟩
  obtain rfl := harg1.eq_unread hf1; obtain rfl := harg2.eq_unread hf2
  sl_exec
  sl_step
  iapply Hk
  isplitl [H1]; · iexists _; isplitr; · ipureintro; exact hf1
                  iexact H1
  isplitl [H2]; · iexists _; isplitr; · ipureintro; exact hf2
                  iexact H2
  iexists _; isplitr
  swap; · iexact H3
  ipureintro
  sl_unfold_words
  rw [read_store_whole _ _ _ origin2]
  simp only [View.readAt_eq_ld, hf1, hf2, View.ld_unit_zero (S := S4096x128) origin2, View.ld_unit_zero (S := S64x128) origin2]

end Cert.KernelIdeal.Hand

end
-- ==== Proof.Data0.lean ====
/-
  The proof data of the two pipelines, at the buffer contents `V` each region is entered with, and the body obligations.

  First pipeline (32 points). Its two inputs' staging buffers hold the point's blocks; the output's staging buffer is
  stored only at the last point and is handed back as found elsewhere. Between points the invariant holds the two scratch
  accumulators at their values after the point before (`accS`, `accC` of the blocks seen so far), the other kernel's
  staging buffers at anything, and the generator register; before the first point the scratch holds anything.
  Second pipeline (64 points): every point stores its output block whole from its two input blocks; nothing is carried.
-/
import proofs.«401886_j90391881712070_1_alg».proof.Proof.Gen.KernelIdeal.Launch
import proofs.«401886_j90391881712070_1_alg».proof.Proof.Gen.KernelIdeal.Skeleton
import proofs.«401886_j90391881712070_1_alg».proof.Proof.Gen.KernelIdeal.Points
import proofs.«401886_j90391881712070_1_alg».proof.Proof.Acc
import proofs.«401886_j90391881712070_1_alg».proof.Proof.Bodies
import Idealize.ShloMosaic.Lib.Pipeline.FrameBody
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first pipeline -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The grid point numbered `n` (reduced modulo the 32 points, so that it is total). -/
def pt0 (n : ℕ) : Fin cfg0.N := ⟨n % 32, lt_of_lt_of_eq (Nat.mod_lt _ (by decide)) N_0.symm⟩

theorem pt0_val (t : Fin cfg0.N) : pt0 t.val = t :=
  Fin.ext (Nat.mod_eq_of_lt (lt_of_lt_of_eq t.isLt N_0))

/-- The embedding block and the label block of point `n`. -/
def eblk (c : Dev nD) (n : ℕ) : Vec F S2048x128 .f32 := iblk0 V c 0 (pt0 n)
def lblk (c : Dev nD) (n : ℕ) : Vec F S2048x1 .i32 := iblk0 V c 1 (pt0 n)

theorem eblk_val (c : Dev nD) (t : Fin cfg0.N) : eblk V c t.val = iblk0 V c 0 t := by unfold eblk; rw [pt0_val]
theorem lblk_val (c : Dev nD) (t : Fin cfg0.N) : lblk V c t.val = iblk0 V c 1 t := by unfold lblk; rw [pt0_val]

/-- The scratch operands as memrefs. -/
abbrev scM4 : Memref sig .tc .vmem S64x128 .f32 := Memref.whole cc0_scratch0
abbrev scM5 : Memref sig .tc .vmem S64x128 .f32 := Memref.whole cc0_scratch1

/-- The second kernel's staging buffers, which the first kernel never touches, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the region hands the first kernel besides its windows: the two scratch buffers and the other kernel's staging
    buffers at anything, and the generator register. -/
theorem PhiA0_eq (c : Dev nD) :
    (Pipeline.ΦA spec0 c : sProp 𝕄)
      = iprop(((∃ d, owns (c : Thread nD τ) scM4 fullShare d) ∗ (∃ d, owns (c : Thread nD τ) scM5 fullShare d) ∗ rest0 (F := F) c) ∗ (∃ r, prngReg c r)) := by
  unfold Pipeline.ΦA rest0; rw [scopedRest0_eq]; simp only [scM4, scM5, owns_whole]; rfl

/-- The invariant before point `n`. -/
def Phi0 (c : Dev nD) : ℕ → sProp 𝕄
  | 0 => Pipeline.ΦA spec0 c
  | n + 1 => iprop((owns (c : Thread nD τ) scM4 fullShare (accS (eblk V c) (lblk V c) n) ∗ owns (c : Thread nD τ) scM5 fullShare (accC (lblk V c) n) ∗ rest0 (F := F) c) ∗ (∃ r, prngReg c r))

theorem Phi0_zero (c : Dev nD) : Phi0 V c 0 = Pipeline.ΦA spec0 c := rfl
theorem Phi0_succ' (c : Dev nD) (n : ℕ) :
    Phi0 V c (n + 1) = iprop((owns (c : Thread nD τ) scM4 fullShare (accS (eblk V c) (lblk V c) n) ∗ owns (c : Thread nD τ) scM5 fullShare (accC (lblk V c) n) ∗ rest0 (F := F) c) ∗ (∃ r, prngReg c r)) := rfl

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => protoBlk (eblk V c) (lblk V c)
  Φ t := Phi0 V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = protoBlk (eblk V c) (lblk V c) := by dsimp only [dat0]

/-- Each input's current staging buffer holds the point's block, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-! ## The branch conditions and the idle points, decided over the grid -/

theorem hfirst0 : ∀ t : Fin cfg0.N, condFirst (grid0.coords t) ↔ t.val = 0 :=
  (by decide +kernel : ∀ t : Fin grid0.N, condFirst (grid0.coords t) ↔ t.val = 0)
theorem hlast0 : ∀ t : Fin cfg0.N, k0_cond2 (grid0.coords t) = 1#1 ↔ t.val = 31 :=
  (by decide +kernel : ∀ t : Fin grid0.N, k0_cond2 (grid0.coords t) = 1#1 ↔ t.val = 31)
theorem live0_0 : ∀ t : Fin cfg0.N, cfg0.idle 0 (grid0.coords t) = false := by decide +kernel
theorem live0_1 : ∀ t : Fin cfg0.N, cfg0.idle 1 (grid0.coords t) = false := by decide +kernel
theorem idle0_2 : ∀ t : Fin cfg0.N, t.val ≠ 31 → cfg0.idle 2 (grid0.coords t) = true := by decide +kernel
theorem noflush0_2 (t : Fin cfg0.N) (h : t.val ≠ 31) : (cfg0.win 2).flush t = false := by
  cases hf : (cfg0.win 2).flush t
  · rfl
  · exact absurd (by have := (flush0_2 t).mp hf; have hN := lt_of_lt_of_eq t.isLt N_0; omega) h
theorem flush0_2_last (t : Fin cfg0.N) (h : t.val = 31) : (cfg0.win 2).flush t = true :=
  (flush0_2 t).mpr (by omega)

/-- At a point that writes the block back the post is the plain one. -/
theorem leavesExact_of_flush {cfg : Cfg sig Λ₀} {c : Dev nD} (dat : Dat τ (Elt F) Unit ℕ (UR sig nD τ) ℕ cfg c) (w : Fin cfg.W) (t : Fin cfg.N)
    (hf : (cfg.win w).flush t = true) :
    dat.leavesExact w t = owns (c : Thread nD τ) ((cfg.win w).stage (cfg.slots t w)) fullShare (dat.after w t) := by
  unfold Dat.leavesExact; cases cfg.idle w (cfg.grid.coords t) <;> simp only [hf]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t)

theorem Phi0_castSucc (c : Dev nD) (t : Fin cfg0.N) : (dat0 V c).Φ t.castSucc = Phi0 V c t.val := by
  dsimp only [dat0]; simp only [Fin.coe_castSucc]
theorem Phi0_succ (c : Dev nD) (t : Fin cfg0.N) : (dat0 V c).Φ t.succ = Phi0 V c (t.val + 1) := by
  dsimp only [dat0]; simp only [Fin.val_succ]

set_option maxHeartbeats 1600000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl, Phi0_castSucc, Phi0_succ]
  rw [show (dat0 V c).leavesExact 0 t = owns (c : Thread nD τ) (st0_0 t) fullShare ((dat0 V c).after 0 t) from by
    unfold Dat.leavesExact; rw [live0_0 t], after0_0]
  rw [show (dat0 V c).leavesExact 1 t = owns (c : Thread nD τ) (st0_1 t) fullShare ((dat0 V c).after 1 t) from by
    unfold Dat.leavesExact; rw [live0_1 t], after0_1]
  have hN : t.val < 32 := lt_of_lt_of_eq t.isLt N_0
  by_cases hz : t.val = 0
  · -- the first point
    have hl : t.val ≠ 31 := by omega
    rw [Dat.leavesExact_idle (dat0 V c) 2 t (idle0_2 t hl) (noflush0_2 t hl)]
    rw [hz, Phi0_zero, Phi0_succ', PhiA0_eq]
    rw [show accS (eblk V c) (lblk V c) 0 = k0_pay4 (iblk0 V c 0 t) (iblk0 V c 1 t) k0_pay1 from by
      unfold accS; rw [← eblk_val V c t, ← lblk_val V c t, hz]]
    rw [show accC (lblk V c) 0 = k0_pay5 (iblk0 V c 1 t) k0_pay2 from by
      unfold accC; rw [← lblk_val V c t, hz]]
    iintro ⟨⟨⟨HS4, HS5, Hr⟩, Hg⟩, Ho, ⟨%d0, H0⟩, ⟨%d1, H1⟩, ⟨%d2, H2⟩⟩
    iapply (body0_first c Set.univ (grid0.coords t) _ _ _ _ _ _ _ _ _ _ ((hfirst0 t).mpr hz) (fun h => hl ((hlast0 t).mp h))
      (iblk0 V c 0 t) (iblk0 V c 1 t) ((dat0 V c).before 2 t d2) _)
    isplitl [H0]; · iexact H0
    isplitl [H1]; · iexact H1
    isplitl [H2]; · iexact H2
    isplitl [HS4]; · iexact HS4
    isplitl [HS5]; · iexact HS5
    iintro ⟨H0, H1, H2, HS4, HS5⟩
    isplitl [HS4 HS5 Hr Hg]
    · isplitr [Hg]
      · isplitl [HS4]; · iexact HS4
        isplitl [HS5]; · iexact HS5
        iexact Hr
      iexact Hg
    isplitl [Ho]; · iexact Ho
    isplitl [H0]; · iexact H0
    isplitl [H1]; · iexact H1
    iexists _; iexact H2
  · obtain ⟨n, hn⟩ : ∃ n, t.val = n + 1 := ⟨t.val - 1, by omega⟩
    have hS : accS (eblk V c) (lblk V c) (n + 1) = k0_pay4 (iblk0 V c 0 t) (iblk0 V c 1 t) (accS (eblk V c) (lblk V c) n) := by
      rw [← eblk_val V c t, ← lblk_val V c t, hn]; rfl
    have hC : accC (lblk V c) (n + 1) = k0_pay5 (iblk0 V c 1 t) (accC (lblk V c) n) := by
      rw [← lblk_val V c t, hn]; rfl
    rw [hn, Phi0_succ', Phi0_succ', hS, hC]
    by_cases hl : t.val = 31
    · -- the last point
      rw [leavesExact_of_flush (dat0 V c) 2 t (flush0_2_last t hl), after0_2]
      have hn30 : n = 30 := by omega
      rw [show protoBlk (eblk V c) (lblk V c)
          = k0_pay6 (k0_pay4 (iblk0 V c 0 t) (iblk0 V c 1 t) (accS (eblk V c) (lblk V c) n)) (k0_pay5 (iblk0 V c 1 t) (accC (lblk V c) n)) from by
        unfold protoBlk; rw [← hS, ← hC, hn30]]
      iintro ⟨⟨⟨HS4, HS5, Hr⟩, Hg⟩, Ho, ⟨%d0, H0⟩, ⟨%d1, H1⟩, ⟨%d2, H2⟩⟩
      iapply (body0_last c Set.univ (grid0.coords t) _ _ _ _ _ _ _ _ _ _ (fun h => hz ((hfirst0 t).mp h)) ((hlast0 t).mpr hl)
        (iblk0 V c 0 t) (iblk0 V c 1 t) (accS (eblk V c) (lblk V c) n) (accC (lblk V c) n) _)
      isplitl [H0]; · iexact H0
      isplitl [H1]; · iexact H1
      isplitl [H2]; · iexists _; iexact H2
      isplitl [HS4]; · iexact HS4
      isplitl [HS5]; · iexact HS5
      iintro ⟨H0, H1, H2, HS4, HS5⟩
      isplitl [HS4 HS5 Hr Hg]
      · isplitr [Hg]
        · isplitl [HS4]; · iexact HS4
          isplitl [HS5]; · iexact HS5
          iexact Hr
        iexact Hg
      isplitl [Ho]; · iexact Ho
      isplitl [H0]; · iexact H0
      isplitl [H1]; · iexact H1
      iexact H2
    · -- a middle point
      rw [Dat.leavesExact_idle (dat0 V c) 2 t (idle0_2 t hl) (noflush0_2 t hl)]
      iintro ⟨⟨⟨HS4, HS5, Hr⟩, Hg⟩, Ho, ⟨%d0, H0⟩, ⟨%d1, H1⟩, ⟨%d2, H2⟩⟩
      iapply (body0_mid c Set.univ (grid0.coords t) _ _ _ _ _ _ _ _ _ _ (fun h => hz ((hfirst0 t).mp h)) (fun h => hl ((hlast0 t).mp h))
        (iblk0 V c 0 t) (iblk0 V c 1 t) ((dat0 V c).before 2 t d2) (accS (eblk V c) (lblk V c) n) (accC (lblk V c) n) _)
      isplitl [H0]; · iexact H0
      isplitl [H1]; · iexact H1
      isplitl [H2]; · iexact H2
      isplitl [HS4]; · iexact HS4
      isplitl [HS5]; · iexact HS5
      iintro ⟨H0, H1, H2, HS4, HS5⟩
      isplitl [HS4 HS5 Hr Hg]
      · isplitr [Hg]
        · isplitl [HS4]; · iexact HS4
          isplitl [HS5]; · iexact HS5
          iexact Hr
        iexact Hg
      isplitl [Ho]; · iexact Ho
      isplitl [H0]; · iexact H0
      isplitl [H1]; · iexact H1
      iexists _; iexact H2

/-- The library's body obligation for the first pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Data1.lean ====
/-
  The proof data of the second pipeline (64 points), at the buffer contents `V` the region is entered with, and its body
  obligation: every point stores its output block whole from the query block and the prototypes; nothing is carried between
  points, and the invariant is the untouched scoped rest with the generator register.
-/
import proofs.«401886_j90391881712070_1_alg».proof.Proof.Gen.KernelIdeal.Launch
import proofs.«401886_j90391881712070_1_alg».proof.Proof.Gen.KernelIdeal.Skeleton
import proofs.«401886_j90391881712070_1_alg».proof.Proof.Gen.KernelIdeal.Points
import proofs.«401886_j90391881712070_1_alg».proof.Proof.Acc
import proofs.«401886_j90391881712070_1_alg».proof.Proof.Bodies
import Idealize.ShloMosaic.Lib.Pipeline.FrameBody
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (iblk1 V c 0 t) (iblk1 V c 1 t) := by dsimp only [dat1]

/-- Each input's current staging buffer holds the point's block, fetched there or not (the prototypes are fetched at the
    first point only: their block index never moves). -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (body1_run c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for the second pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Run.lean ====
/-
  The whole program's run: the reshape of the labels, the first pipeline, the second pipeline.
  The buffer contents at each boundary are a fold from the launch memory: after the host reshape, after the first
  pipeline (its output array at what its write-backs leave, every other buffer as entered), after the second. Each pipeline
  is a region record over the thread state "every unscoped buffer at the boundary's contents, the generator register at
  some state, nothing owed"; the launch theorem for a list of segments then gives: every weakly fair execution terminates,
  the result array ends at what the second pipeline's write-backs leave, and the three arguments end as launched.
-/
import proofs.«401886_j90391881712070_1_alg».proof.Proof.Gen.KernelIdeal.Launch
import proofs.«401886_j90391881712070_1_alg».proof.Proof.Gen.KernelIdeal.Skeleton
import proofs.«401886_j90391881712070_1_alg».proof.Proof.Gen.KernelIdeal.Points
import proofs.«401886_j90391881712070_1_alg».proof.Proof.Data0
import proofs.«401886_j90391881712070_1_alg».proof.Proof.Data1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch, -/
abbrev W0 : Dev nD → Valuation τ sig (Elt F) := fun c b => m (c, b)
/-- after the host reshape of the labels (the first pipeline's entry), -/
abbrev W1 : Dev nD → Valuation τ sig (Elt F) := fun c => StableHlo.after hostOps0 (W0 m c)
/-- the same read at the TensorCore's references. -/
abbrev U1 : (c : Dev nD) → (b : Ref sig .tc) → Buf (Elt F) ((c : Thread nD τ).loc b) := fun c b => W1 m c b

/-- At the first pipeline's exit: its arrays at what it leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- At the second pipeline's exit. -/
def W3 (c : Dev nD) : Valuation τ sig (Elt F) :=
  Pipeline.withArrays spec1 c (W2 m c) fun w => (dat1 (U2 m) c).arrAt w cfg1.N
theorem W3_arr (c : Dev nD) (w : Fin cfg1.W) :
    W3 m c (Proc.devRef .tc (Pipeline.arrRef spec1 w)) = (dat1 (U2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev U3 : (c : Dev nD) → (b : Ref sig .tc) → Buf (Elt F) ((c : Thread nD τ).loc b) := fun c b => W3 m c b
theorem hF1 (c : Dev nD) (w : Fin cfg1.W) : (dat1 (U2 m) c).arrAt w cfg1.N = U3 m c (Pipeline.arrRef spec1 w) :=
  (W3_arr m c w).symm
theorem hrest1 (c : Dev nD) : ∀ b, b ∉ Finset.univ.image (Pipeline.arrRef spec1) → U3 m c b = U2 m c b :=
  fun b hb => W3_of_ne m c b fun w e => hb (Finset.mem_image.mpr ⟨w, Finset.mem_univ _, e⟩)

/-- The host reshape writes only the label column. -/
theorem W1_of_ne (c : Dev nD) (b : Ref sig .tc) (hb : b ≠ main_v0) : W1 m c (Proc.devRef .tc b) = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-! ### The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (U1 m) c).arrAt_in 0 rfl _).trans (A_eq0 (U1 m) c 0))
    _ = m ((c : Thread nD τ).loc main_arg0) := W1_of_ne m c main_arg0 (by decide)
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = m ((c : Thread nD τ).loc main_arg1) := W1_of_ne m c main_arg1 (by decide)
theorem W3_main_arg2 (c : Dev nD) : W3 m c (Proc.devRef .tc main_arg2) = m ((c : Thread nD τ).loc main_arg2) :=
  calc W3 m c (Proc.devRef .tc main_arg2)
    _ = W2 m c (Proc.devRef .tc main_arg2) := (W3_arr m c 0).trans (((dat1 (U2 m) c).arrAt_in 0 rfl _).trans (A_eq1 (U2 m) c 0))
    _ = W1 m c (Proc.devRef .tc main_arg2) := W2_of_ne m c main_arg2 (by decide)
    _ = m ((c : Thread nD τ).loc main_arg2) := W1_of_ne m c main_arg2 (by decide)

/-- What the second pipeline finds in its two input arrays: the queries as launched, the prototypes as the first
    pipeline left them; and what the first finds in its embeddings' array: the embeddings as launched. -/
theorem U2_main_arg2 (c : Dev nD) : U2 m c main_arg2 = m ((c : Thread nD τ).loc main_arg2) :=
  (W2_of_ne m c main_arg2 (by decide)).trans (W1_of_ne m c main_arg2 (by decide))
theorem U2_main_v1 (c : Dev nD) : U2 m c main_v1 = (dat0 (U1 m) c).arrAt 2 cfg0.N := W2_arr m c 2
theorem U1_main_arg0 (c : Dev nD) : U1 m c main_arg0 = m ((c : Thread nD τ).loc main_arg0) := W1_of_ne m c main_arg0 (by decide)

/-! ## The proof data family and the thread state -/

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U2 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor

/-- The host reshape as a segment. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W3 m c) ∗ ∃ r, prngReg c r)

/-! ## The pipelines as segments -/

set_option backward.isDefEq.respectTransparency.types false in
/-- The first pipeline over the thread state: entered from every unscoped buffer at `W1`, left at `W2`. Its arrays are
    split out of the unscoped buffers and put back at the exit contents; the generator register and the scoped rest go
    into the invariant, and come back out of its last value, the accumulators' contents forgotten. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Phi0 (U1 m) c (31 + 1) from rfl, Phi0_succ',
      show (Pipeline.scopedRest (Pipeline.pin (pcfgs (F := F)) adm 0).spec c : sProp 𝕄) = _ from scopedRest0_eq c]
    unfold rest0
    iintro ⟨⟨HS4, HS5, Hr⟩, Hp⟩
    isplitl [Hp]; · iexact Hp
    isplitr; · iempintro
    isplitl [HS4]; · iexists _; rw [← owns_whole]; iexact HS4
    isplitl [HS5]; · iexists _; rw [← owns_whole]; iexact HS5
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pipeline over the thread state: entered from every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U2 m c) (U3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg0 m), .region (reg0 m), .region (reg1 m) ]

theorem main_run (c : Dev nD) : main (F := F) c = Pipeline.Seg.run (segs m) := (main_chain c).trans (by chain_rfl)

set_option backward.isDefEq.respectTransparency.types false in
/-- THE RUN. From any memory with zero counters every weakly fair execution of the program terminates; the result array
    ends at what the second pipeline's write-backs leave (`Dat.arrAt` of its proof data, entered with the queries as
    launched and the prototypes the first pipeline left), and the three arguments end as launched. -/
theorem run_main : θ_run defs (onTc (τ := τ) (main (F := F))) ⟨m, fun _ => 0, ρ⟩ (fun r => ∀ c : Dev nD,
      r.2.mem ((c.tc : Thread nD τ).loc main_v2) = (dat1 (U2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v2 (by decide))).trans (W3_arr m c 2),
       (h c _ (mem_uc main_arg0 (by decide))).trans (W3_main_arg0 m c),
       (h c _ (mem_uc main_arg1 (by decide))).trans (W3_main_arg1 m c),
       (h c _ (mem_uc main_arg2 (by decide))).trans (W3_main_arg2 m c)⟩)

end Cert.KernelIdeal.Hand

end
-- ==== Proof.Spec.lean ====
/-
  The mathematical content of the claim, as functions on the extended reals, index by index.

  Inputs: support embeddings `emb` (65536 × 128), integer labels `lab` (65536), queries `q` (262144 × 128).
  * a label `lab n` belongs to class `c < 64` when the 32-bit word equals `c`; labels outside `0 … 63`
    belong to no class;
  * the prototype of class `c` is the sum of the embeddings of its members divided by `max (#members) 1`;
  * for a query row `x` and class `c`: `‖x‖² + ‖p_c‖² − Σ_k (2·x_k)·p_c,k`, clamped below at `0`, its square
    root negated, and over the 64 classes the softmax of those numbers (the row maximum subtracted first).
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

abbrev SE : Shape := ⟨2, ![65536, 128]⟩
abbrev SL : Shape := ⟨1, ![65536]⟩
abbrev SQ : Shape := ⟨2, ![262144, 128]⟩
abbrev SP : Shape := ⟨2, ![64, 128]⟩
abbrev SO : Shape := ⟨2, ![262144, 64]⟩

/-- `1` when the word is the class number, else `0`. -/
def hot (w : BitVec 32) (c : Fin 64) : EReal := if w = BitVec.ofNat 32 c.val then 1 else 0

/-- The sum of the embeddings' column `d` over the members of class `c`. -/
def classSum (emb : SE.Idx → EReal) (lab : SL.Idx → BitVec 32) (c : Fin 64) (d : Fin 128) : EReal :=
  ∑ n : Fin 65536, hot (lab (ix1 n)) c * emb (ix2 n d)

/-- The number of members of class `c`. -/
def classCount (lab : SL.Idx → BitVec 32) (c : Fin 64) : EReal :=
  ∑ n : Fin 65536, hot (lab (ix1 n)) c

/-- The prototype of class `c`, column `d`: the class mean, an empty class divided by one. -/
def protoAt (emb : SE.Idx → EReal) (lab : SL.Idx → BitVec 32) (c : Fin 64) (d : Fin 128) : EReal :=
  Ideal.div (classSum emb lab c d) (max (classCount lab c) (Ideal.ofBits .f32 0x3F800000#32))

/-- The prototypes as an array. -/
def proto (emb : SE.Idx → EReal) (lab : SL.Idx → BitVec 32) : SP.Idx → EReal :=
  fun j => protoAt emb lab (j 0) (j 1)

theorem proto_ix2 (emb : SE.Idx → EReal) (lab : SL.Idx → BitVec 32) (c : Fin 64) (d : Fin 128) :
    proto emb lab (ix2 c d) = protoAt emb lab c d := rfl

/-- The squared distance of a query row `x` to prototype `c`, expanded: `‖x‖² + ‖p_c‖² − Σ_k (2·x_k)·p_c,k`. -/
def sqDist (x : Fin 128 → EReal) (p : SP.Idx → EReal) (c : Fin 64) : EReal :=
  (∑ k : Fin 128, x k * x k) + (∑ k : Fin 128, p (ix2 c k) * p (ix2 c k))
    - ∑ k : Fin 128, (Ideal.ofBits .f32 0x40000000#32 * x k) * p (ix2 c k)

/-- Minus the distance (the squared distance clamped at zero before the root). -/
def negDist (x : Fin 128 → EReal) (p : SP.Idx → EReal) (c : Fin 64) : EReal :=
  -(Ideal.sqrt (max (sqDist x p c) 0))

/-- The row's maximum over the classes, from `-∞`. -/
def rowMax (x : Fin 128 → EReal) (p : SP.Idx → EReal) : EReal :=
  max (Ideal.ofBits .f32 0xFF800000#32)
    ((Finset.univ : Finset (Fin 64)).fold max (Ideal.ofBits .f32 0xFF800000#32) (fun c => negDist x p c))

/-- The shifted exponential of class `c`. -/
def expo (x : Fin 128 → EReal) (p : SP.Idx → EReal) (c : Fin 64) : EReal :=
  Ideal.exp (negDist x p c - rowMax x p)

/-- The softmax weight of class `c` for the query row `x`. -/
def outRow (x : Fin 128 → EReal) (p : SP.Idx → EReal) (c : Fin 64) : EReal :=
  Ideal.div (expo x p c) (∑ c' : Fin 64, expo x p c')

/-- The result array from the queries and the prototypes. -/
def out (q : SQ.Idx → EReal) (p : SP.Idx → EReal) : SO.Idx → EReal :=
  fun j => outRow (fun k => q (ix2 (j 0) k)) p (j 1)

theorem out_ix2 (q : SQ.Idx → EReal) (p : SP.Idx → EReal) (n : Fin 262144) (c : Fin 64) :
    out q p (ix2 n c) = outRow (fun k => q (ix2 n k)) p c := rfl

/-- The whole computation. -/
def result (emb : SE.Idx → EReal) (lab : SL.Idx → BitVec 32) (q : SQ.Idx → EReal) : SO.Idx → EReal :=
  out q (proto emb lab)

end Cert.Spec

end
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.Pay0Value.lean ====
/-
  The first kernel's arithmetic read at an index, on the extended reals: the one-hot class test is the
  specification's `hot`; one point adds to the class-sum accumulator the block's sum of the embeddings of each class's
  members, and to the class-count accumulator the number of members; after point `n` the accumulators hold the sums over
  the points `0 … n`; the stored quotient is the specification's.
-/
import proofs.«401886_j90391881712070_1_alg».proof.Proof.Gen.KernelIdeal.Skeleton
import proofs.«401886_j90391881712070_1_alg».proof.Proof.Acc
import proofs.«401886_j90391881712070_1_alg».proof.Proof.Spec
import Idealize.ShloMosaic.Lib.ValueIdx
import Idealize.ShloMosaic.Lib.ValueLayout
import Idealize.ShloMosaic.Lib.Pipeline.Value
import Idealize.ShloMosaic.PureOps.Ideal.Laws
import proofs.«401886_j90391881712070_1_alg».proof.Proof.LibDotSum

noncomputable section

open scoped BigOperators

namespace Cert.KernelIdeal.PayValue

open Idealize.ShloMosaic Idealize.ShloMosaic.ValueIdx Cert.KernelIdeal Cert.KernelIdeal.Gen Cert.KernelIdeal.Hand

/-- The zero splat the first point stores into the class-sum accumulator. -/
theorem pay1_apply (c : Fin 64) (d : Fin 128) : k0_pay1 (F := Ideal) (ix2 c d) = 0 := by
  unfold k0_pay1
  rw [shapeCast_self]
  exact Ideal.ofBits_zero_f32

/-- The zero splat the first point stores into the class-count accumulator. -/
theorem pay2_apply (c : Fin 64) (d : Fin 128) : k0_pay2 (F := Ideal) (ix2 c d) = 0 := by
  unfold k0_pay2
  rw [shapeCast_self]
  exact Ideal.ofBits_zero_f32

/-- The one-hot class test at row `r`, class `c`: the label word of the row compared with the class number, the bit
    widened to a word and converted, is the specification's `hot`. -/
private theorem pay3_apply (l : Vec Ideal S2048x1 .i32) (r : Fin 2048) (c : Fin 64) :
    k0_pay3 (F := Ideal) l (ix2 r c) = Cert.Spec.hot (l (ix2 r (0 : Fin 1))) c := by
  unfold k0_pay3
  simp only [shapeCast_self]
  show ((((IntOp.cmpi .eq (broadcastTo S2048x64 l broadcasts_S2048x1_S2048x64 (ix2 r c))
    (iota .tc S2048x64 32 [1] iota_S2048x64_d1_w32 (ix2 r c))).setWidth 32).toInt : ℝ) : EReal) = _
  rw [broadcastTo_apply l broadcasts_S2048x1_S2048x64 (ix2 r c) (ix2 r (0 : Fin 1))
    (fun a => match a with | ⟨0, _⟩ => rfl | ⟨1, _⟩ => rfl), iota_single_apply]
  show ((((IntOp.cmpi .eq (l (ix2 r (0 : Fin 1))) (BitVec.ofNat 32 c.val)).setWidth 32).toInt : ℝ) : EReal) = _
  unfold Cert.Spec.hot IntOp.cmpi
  by_cases h : l (ix2 r (0 : Fin 1)) = BitVec.ofNat 32 c.val
  · rw [if_pos h, h]
    simp
  · rw [if_neg h]
    have hb : (l (ix2 r (0 : Fin 1)) == BitVec.ofNat 32 c.val) = false := by simpa using h
    simp [hb]

/-- One point's update of the class sums: the accumulator plus, over the block's 2048 rows, the embeddings of the rows
    whose label is the class. -/
theorem pay4_apply (x : Vec Ideal S2048x128 .f32) (l : Vec Ideal S2048x1 .i32) (s : Vec Ideal S64x128 .f32)
    (c : Fin 64) (d : Fin 128) :
    k0_pay4 x l s (ix2 c d) = s (ix2 c d) + ∑ r : Fin 2048, Cert.Spec.hot (l (ix2 r (0 : Fin 1))) c * x (ix2 r d) := by
  unfold k0_pay4
  rw [shapeCast_self, addf_apply,
    Cert.Lib.matmul_cc_apply dot_S2048x64_S2048x128_S64x128_0_0_1_1_n_n rfl rfl rfl rfl rfl rfl]
  refine congrArg (s (ix2 c d) + ·) (Finset.sum_congr rfl fun r _ => ?_)
  rw [truncf_apply, truncf_apply, pay3_apply]

/-- One point's update of the class counts: the accumulator plus the number of the block's rows whose label is the class
    (the same in every column). -/
theorem pay5_apply (l : Vec Ideal S2048x1 .i32) (s : Vec Ideal S64x128 .f32) (c : Fin 64) (d : Fin 128) :
    k0_pay5 l s (ix2 c d) = s (ix2 c d) + ∑ r : Fin 2048, Cert.Spec.hot (l (ix2 r (0 : Fin 1))) c := by
  unfold k0_pay5
  rw [shapeCast_self, addf_apply]
  refine congrArg (s (ix2 c d) + ·) ?_
  rw [broadcastTo_apply _ broadcasts_S64x1_S64x128 (ix2 c d) (ix2 c (0 : Fin 1))
    (fun a => match a with | ⟨0, _⟩ => rfl | ⟨1, _⟩ => rfl), shapeCast_self,
    shapeCast_apply _ shapeCasts_S64_S64x1 (ix2 c (0 : Fin 1)) (ix1 c)
      (by rw [Shape.rowMajor_val_two, Shape.rowMajor_val_one]; show c.val = c.val * 1 + 0; omega)]
  refine (Ideal.multiReduction_add_single (k0_pay3 (F := Ideal) l) _ reduces_S2048x64_S64 _ _ (ix1 c)).trans ?_
  show ∑ r : Fin 2048, k0_pay3 (F := Ideal) l (reduces_S2048x64_S64.lift (ix1 c) r) = _
  refine Finset.sum_congr rfl fun r _ => ?_
  have e : reduces_S2048x64_S64.lift (ix1 c) r = ix2 r c := funext fun a => Fin.ext (by
    match a with
    | ⟨0, _⟩ => rfl
    | ⟨1, _⟩ => rfl)
  rw [e, pay3_apply]

/-- The last point's quotient. -/
theorem pay6_apply (a b : Vec Ideal S64x128 .f32) (c : Fin 64) (d : Fin 128) :
    k0_pay6 a b (ix2 c d) = Ideal.div (a (ix2 c d)) (max (b (ix2 c d)) (Ideal.ofBits .f32 0x3F800000#32)) := by
  rfl

/-- The class sums after point `n`: the sum over the points `0 … n` and each block's rows. -/
theorem accS_apply (xs : ℕ → Vec Ideal S2048x128 .f32) (ls : ℕ → Vec Ideal S2048x1 .i32) (n : ℕ) (c : Fin 64) (d : Fin 128) :
    accS xs ls n (ix2 c d)
      = ∑ t ∈ Finset.range (n + 1), ∑ r : Fin 2048, Cert.Spec.hot (ls t (ix2 r (0 : Fin 1))) c * xs t (ix2 r d) := by
  induction n with
  | zero =>
    show k0_pay4 (xs 0) (ls 0) (k0_pay1 (F := Ideal)) (ix2 c d) = _
    rw [pay4_apply, pay1_apply, zero_add, Finset.sum_range_one]
  | succ n ih =>
    show k0_pay4 (xs (n + 1)) (ls (n + 1)) (accS xs ls n) (ix2 c d) = _
    rw [pay4_apply, ih]
    exact (Finset.sum_range_succ _ (n + 1)).symm

/-- The class counts after point `n`. -/
theorem accC_apply (ls : ℕ → Vec Ideal S2048x1 .i32) (n : ℕ) (c : Fin 64) (d : Fin 128) :
    accC ls n (ix2 c d) = ∑ t ∈ Finset.range (n + 1), ∑ r : Fin 2048, Cert.Spec.hot (ls t (ix2 r (0 : Fin 1))) c := by
  induction n with
  | zero =>
    show k0_pay5 (ls 0) (k0_pay2 (F := Ideal)) (ix2 c d) = _
    rw [pay5_apply, pay2_apply, zero_add, Finset.sum_range_one]
  | succ n ih =>
    show k0_pay5 (ls (n + 1)) (accC ls n) (ix2 c d) = _
    rw [pay5_apply, ih]
    exact (Finset.sum_range_succ _ (n + 1)).symm

/-- Thirty-two blocks of 2048 rows are the 65536 rows: a sum over points and rows is the sum over the array's rows,
    row `2048 · t + r` being row `r` of block `t`. -/
theorem sum_blocks_rows (f : ℕ → Fin 2048 → EReal) (g : Fin 65536 → EReal)
    (h : ∀ (t : ℕ) (ht : t < 32) (r : Fin 2048), f t r = g ⟨2048 * t + r.val, by omega⟩) :
    ∑ t ∈ Finset.range 32, ∑ r : Fin 2048, f t r = ∑ n : Fin 65536, g n := by
  have e : ∑ n : Fin 65536, g n = ∑ p : Fin 32 × Fin 2048, g (finProdFinEquiv p) :=
    (Equiv.sum_comp (finProdFinEquiv (m := 32) (n := 2048)) g).symm
  rw [Finset.sum_range, e, Fintype.sum_prod_type]
  refine Finset.sum_congr rfl fun t _ => Finset.sum_congr rfl fun r _ => ?_
  rw [h t.val t.isLt r]
  refine congrArg g (Fin.ext ?_)
  show 2048 * t.val + r.val = r.val + 2048 * t.val
  omega

/-- The output block of the first kernel is the specification's prototypes, when block `t` of the embeddings and of the
    labels is rows `2048 · t … 2048 · t + 2047` of the arrays `emb` and `lab`. -/
theorem protoBlk_eq (xs : ℕ → Vec Ideal S2048x128 .f32) (ls : ℕ → Vec Ideal S2048x1 .i32)
    (emb : Cert.Spec.SE.Idx → EReal) (lab : Cert.Spec.SL.Idx → BitVec 32)
    (hx : ∀ (t : ℕ) (ht : t < 32) (r : Fin 2048) (d : Fin 128), xs t (ix2 r d) = emb (ix2 (⟨2048 * t + r.val, by omega⟩ : Fin 65536) d))
    (hl : ∀ (t : ℕ) (ht : t < 32) (r : Fin 2048), ls t (ix2 r (0 : Fin 1)) = lab (ix1 (⟨2048 * t + r.val, by omega⟩ : Fin 65536))) :
    protoBlk xs ls = Cert.Spec.proto emb lab := by
  funext j
  obtain ⟨c, d, rfl⟩ : ∃ (c : Fin 64) (d : Fin 128), j = ix2 c d := ⟨j 0, j 1, eq_ix2 j⟩
  rw [Cert.Spec.proto_ix2]
  unfold protoBlk Cert.Spec.protoAt Cert.Spec.classSum Cert.Spec.classCount
  rw [pay6_apply, accS_apply, accC_apply,
    sum_blocks_rows (fun t r => Cert.Spec.hot (ls t (ix2 r (0 : Fin 1))) c * xs t (ix2 r d))
      (fun n => Cert.Spec.hot (lab (ix1 n)) c * emb (ix2 n d)) (fun t ht r => by rw [hx t ht r d, hl t ht r]),
    sum_blocks_rows (fun t r => Cert.Spec.hot (ls t (ix2 r (0 : Fin 1))) c)
      (fun n => Cert.Spec.hot (lab (ix1 n)) c) (fun t ht r => by rw [hl t ht r])]

end Cert.KernelIdeal.PayValue

end
-- ==== Proof.Pay1Value.lean ====
/-
  The second kernel's arithmetic read at an index, on the extended reals: row `r`, class `c` of the stored block is the
  specification's softmax weight for the block's row `r` against the prototypes. The kernel doubles the inner product
  where the specification doubles the query's entries first: the two agree because multiplying by the finite
  non-negative number two distributes over any sum of extended reals.
-/
import proofs.«401886_j90391881712070_1_alg».proof.Proof.Gen.KernelIdeal.Skeleton
import proofs.«401886_j90391881712070_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayValue

open Idealize.ShloMosaic Idealize.ShloMosaic.ValueIdx Cert.KernelIdeal Cert.KernelIdeal.Gen

/-! ## Layout operations and reductions of a matrix, read at coordinates -/

section Layout
variable {α : Type}

/-- A vector `[a]` cast to the column `[a, 1]` reads, at `(i, u)`, the operand at `i`. -/
private theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, c)`, the operand's row `i`. -/
private theorem broadcastTo_a1_ab_apply {a b : ℕ} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- The sum over the columns of a matrix, at row `r`. -/
private theorem rowSum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction (F := Ideal) .add [1] ⟨1, ![a]⟩ x 0x00000000#32 h hφ hacc (ix1 r) = ∑ k : Fin b, x (ix2 r k) := by
  refine (Ideal.multiReduction_add_single x 0x00000000#32 h hφ hacc (ix1 r)).trans ?_
  refine Finset.sum_congr rfl fun k _ => congrArg x (funext fun c => Fin.ext ?_)
  match c with
  | ⟨0, _⟩ => rfl
  | ⟨1, _⟩ => rfl

/-- The maximum over the columns of a matrix, at row `r`, folded from the accumulator's value. -/
private theorem rowMax_apply {a b : ℕ} (x : FVec Ideal ⟨2, ![a, b]⟩ .f32)
    (h : (⟨2, ![a, b]⟩ : Shape).Reduces [1] ⟨1, ![a]⟩)
    (hφ : FKind.Formats .f32) (hacc : (0xFF800000#32 : BitVec 32) = 0xFF800000#32) (r : Fin a) :
    multiReduction (F := Ideal) .maximumf [1] ⟨1, ![a]⟩ x 0xFF800000#32 h hφ hacc (ix1 r)
      = (Finset.univ : Finset (Fin b)).fold max (Ideal.ofBits .f32 0xFF800000#32) (fun c => x (ix2 r c)) := by
  refine (Ideal.multiReduction_maximumf_single x 0xFF800000#32 h hφ hacc (ix1 r)).trans ?_
  refine congrArg (fun f => (Finset.univ : Finset (Fin b)).fold max (Ideal.ofBits .f32 0xFF800000#32) f) (funext fun k => ?_)
  refine congrArg x (funext fun c => Fin.ext ?_)
  match c with
  | ⟨0, _⟩ => rfl
  | ⟨1, _⟩ => rfl

end Layout

/-! ## The block product: rows of the queries against rows of the prototypes -/

private theorem dotLhs_0 (i : S4096x64.Idx) (q : dot_S4096x128_S64x128_S4096x64_1_1_0_0_n_n.contr.Idx) :
    (dot_S4096x128_S64x128_S4096x64_1_1_0_0_n_n.lhsIdx i q 0).val = (i 0).val := by
  unfold DotDims.lhsIdx
  rw [dif_neg (show ¬(0 : Fin S4096x128.rank) ∈ dot_S4096x128_S64x128_S4096x64_1_1_0_0_n_n.lhsBatch by decide),
    dif_pos (show (0 : Fin S4096x128.rank) ∈ dot_S4096x128_S64x128_S4096x64_1_1_0_0_n_n.lhsNonContracting by decide)]
  rfl
private theorem dotLhs_1 (i : S4096x64.Idx) (q : dot_S4096x128_S64x128_S4096x64_1_1_0_0_n_n.contr.Idx) :
    (dot_S4096x128_S64x128_S4096x64_1_1_0_0_n_n.lhsIdx i q 1).val = (q ⟨0, by decide⟩).val :=
  dot_S4096x128_S64x128_S4096x64_1_1_0_0_n_n.lhsIdx_val_of_single rfl i q
private theorem dotRhs_0 (i : S4096x64.Idx) (q : dot_S4096x128_S64x128_S4096x64_1_1_0_0_n_n.contr.Idx) :
    (dot_S4096x128_S64x128_S4096x64_1_1_0_0_n_n.rhsIdx i q 0).val = (i 1).val := by
  unfold DotDims.rhsIdx
  rw [dif_neg (show ¬(0 : Fin S64x128.rank) ∈ dot_S4096x128_S64x128_S4096x64_1_1_0_0_n_n.rhsBatch by decide),
    dif_pos (show (0 : Fin S64x128.rank) ∈ dot_S4096x128_S64x128_S4096x64_1_1_0_0_n_n.rhsNonContracting by decide)]
  rfl
private theorem dotRhs_1 (i : S4096x64.Idx) (q : dot_S4096x128_S64x128_S4096x64_1_1_0_0_n_n.contr.Idx) :
    (dot_S4096x128_S64x128_S4096x64_1_1_0_0_n_n.rhsIdx i q 1).val = (q ⟨0, by decide⟩).val :=
  dot_S4096x128_S64x128_S4096x64_1_1_0_0_n_n.rhsIdx_val_of_single rfl i q

/-- The block product into the zero accumulator at row `r`, class `c`: the inner product of row `r` of the left operand
    with row `c` of the right (both operands are contracted over their second axis). -/
private theorem rowsDot_apply {φ₁ φ₂ : FTy} (A : FVec Ideal S4096x128 φ₁) (B : FVec Ideal S64x128 φ₂)
    (r : Fin 4096) (c : Fin 64) :
    matmul dot_S4096x128_S64x128_S4096x64_1_1_0_0_n_n none A B (constant (F := Ideal) S4096x64 .f32 0x00000000#32) (ix2 r c)
      = ∑ k : Fin 128, A (ix2 r k) * B (ix2 c k) := by
  simp only [matmul]
  rw [Ideal.matmul_constant_zero_apply, ← Equiv.sum_comp (contrEquiv1 dot_S4096x128_S64x128_S4096x64_1_1_0_0_n_n 128 rfl rfl).symm]
  refine Finset.sum_congr rfl fun k _ => ?_
  have hk := contrEquiv1_symm_val dot_S4096x128_S64x128_S4096x64_1_1_0_0_n_n 128 rfl rfl k
  have el : dot_S4096x128_S64x128_S4096x64_1_1_0_0_n_n.lhsIdx (ix2 r c) ((contrEquiv1 dot_S4096x128_S64x128_S4096x64_1_1_0_0_n_n 128 rfl rfl).symm k) = ix2 r k :=
    funext fun a => Fin.ext (by
      match a with
      | ⟨0, _⟩ => exact dotLhs_0 _ _
      | ⟨1, _⟩ => exact (dotLhs_1 _ _).trans hk)
  have er : dot_S4096x128_S64x128_S4096x64_1_1_0_0_n_n.rhsIdx (ix2 r c) ((contrEquiv1 dot_S4096x128_S64x128_S4096x64_1_1_0_0_n_n 128 rfl rfl).symm k) = ix2 c k :=
    funext fun a => Fin.ext (by
      match a with
      | ⟨0, _⟩ => exact dotRhs_0 _ _
      | ⟨1, _⟩ => exact (dotRhs_1 _ _).trans hk)
  rw [el, er]

/-! ## Two laws of the extended reals -/

/-- The f32 word of two is a finite non-negative real. -/
private theorem two_real : ∃ t : ℝ, 0 ≤ t ∧ Ideal.ofBits .f32 0x40000000#32 = (t : EReal) := by
  refine ⟨_, ?_, by simp [Ideal.ofBits, Ideal.ieee]; rfl⟩
  positivity

/-- Doubling a sum of products doubles the left factor of each product: multiplication by a finite non-negative
    number distributes over addition of extended reals. -/
private theorem two_mul_sum {n : ℕ} (a b : Fin n → EReal) :
    Ideal.ofBits .f32 0x40000000#32 * ∑ k : Fin n, a k * b k
      = ∑ k : Fin n, (Ideal.ofBits .f32 0x40000000#32 * a k) * b k := by
  obtain ⟨t, ht0, ht⟩ := two_real
  rw [ht]
  have hnn : (0 : EReal) ≤ (t : EReal) := EReal.coe_nonneg.mpr ht0
  have hne : (t : EReal) ≠ ⊤ := EReal.coe_ne_top t
  classical
  refine Finset.induction_on (Finset.univ : Finset (Fin n)) (by simp) fun k s hk ih => ?_
  rw [Finset.sum_insert hk, Finset.sum_insert hk, EReal.left_distrib_of_nonneg_of_ne_top hnn hne, ih, mul_assoc]

/-- Zero minus a number is its negative. -/
private theorem zero_sub' (x : EReal) : Ideal.ofBits .f32 0x00000000#32 - x = -x := by
  rw [Ideal.ofBits_zero_f32, sub_eq_add_neg, zero_add]

/-! ## The payload in stages -/

/-- The prototypes as the kernel reads them (a cast to the same shape). -/
private def pr (p : Vec Ideal S64x128 .f32) : FVec Ideal S64x128 .f32 :=
  shapeCast S64x128 p shapeCasts_S64x128_S64x128

/-- The expanded squared distance, as an array over (row, class). -/
private def sqd (q : Vec Ideal S4096x128 .f32) (p : Vec Ideal S64x128 .f32) : FVec Ideal S4096x64 .f32 :=
  subf
    (addf
      (broadcastTo S4096x64
        (shapeCast S4096x1
          (multiReduction (F := Ideal) .add [1] S4096 (mulf q q) 0x00000000#32 reduces_S4096x128_S4096 (.inl rfl) rfl)
          shapeCasts_S4096_S4096x1)
        broadcasts_S4096x1_S4096x64)
      (broadcastTo S4096x64
        (shapeCast S1x64
          (multiReduction (F := Ideal) .add [1] S64 (mulf (pr p) (pr p)) 0x00000000#32 reduces_S64x128_S64 (.inl rfl) rfl)
          shapeCasts_S64_S1x64)
        broadcasts_S1x64_S4096x64))
    (mulf (broadcast S4096x64 (Scalar.ofBits (F := Ideal) .f32 0x40000000#32))
      (matmul dot_S4096x128_S64x128_S4096x64_1_1_0_0_n_n none (truncf .bf16 q bitsLt_bf16_f32) (truncf .bf16 (pr p) bitsLt_bf16_f32)
        (constant (F := Ideal) S4096x64 .f32 0x00000000#32)))

/-- Minus the distance, as an array over (row, class). -/
private def ndist (q : Vec Ideal S4096x128 .f32) (p : Vec Ideal S64x128 .f32) : FVec Ideal S4096x64 .f32 :=
  subf (broadcast S4096x64 (Scalar.ofBits (F := Ideal) .f32 0x00000000#32))
    (sqrt (maximumf (sqd q p) (broadcast S4096x64 (Scalar.ofBits (F := Ideal) .f32 0x00000000#32))))

/-- The rows' maxima. -/
private def rmax (q : Vec Ideal S4096x128 .f32) (p : Vec Ideal S64x128 .f32) : FVec Ideal S4096 .f32 :=
  maximumf (broadcast S4096 (Scalar.ofBits (F := Ideal) .f32 0xFF800000#32))
    (multiReduction (F := Ideal) .maximumf [1] S4096 (ndist q p) 0xFF800000#32 reduces_S4096x64_S4096 (.inl rfl) rfl)

/-- The shifted exponentials, as an array over (row, class). -/
private def expo (q : Vec Ideal S4096x128 .f32) (p : Vec Ideal S64x128 .f32) : FVec Ideal S4096x64 .f32 :=
  exp (subf (ndist q p)
    (broadcastTo S4096x64 (shapeCast S4096x1 (rmax q p) shapeCasts_S4096_S4096x1) broadcasts_S4096x1_S4096x64))

/-- The stored payload is the exponentials divided by their row sums. -/
private theorem k1_pay1_eq (q : Vec Ideal S4096x128 .f32) (p : Vec Ideal S64x128 .f32) :
    k1_pay1 q p = divf (expo q p)
      (broadcastTo S4096x64
        (shapeCast S4096x1
          (multiReduction (F := Ideal) .add [1] S4096 (expo q p) 0x00000000#32 reduces_S4096x64_S4096 (.inl rfl) rfl)
          shapeCasts_S4096_S4096x1)
        broadcasts_S4096x1_S4096x64) := rfl

/-! ## The stages at an index -/

private theorem pr_eq (p : Vec Ideal S64x128 .f32) : pr p = p := shapeCast_self p _

/-- The expanded squared distance at row `r`, class `c`. -/
private theorem sqd_apply (q : Vec Ideal S4096x128 .f32) (p : Vec Ideal S64x128 .f32) (r : Fin 4096) (c : Fin 64) :
    sqd q p (ix2 r c) = Cert.Spec.sqDist (fun k => q (ix2 r k)) p c := by
  unfold sqd Cert.Spec.sqDist
  rw [subf_apply, addf_apply, mulf_apply, broadcast_apply, broadcastTo_a1_ab_apply, shapeCast_a_a1_apply, rowSum_apply,
    broadcastTo_1b_ab_apply, shapeCast_a_1a_apply, rowSum_apply, rowsDot_apply, pr_eq]
  simp only [mulf_apply, truncf_apply, Ideal.ofBits_def]
  rw [two_mul_sum]

/-- Minus the distance at row `r`, class `c`. -/
private theorem ndist_apply (q : Vec Ideal S4096x128 .f32) (p : Vec Ideal S64x128 .f32) (r : Fin 4096) (c : Fin 64) :
    ndist q p (ix2 r c) = Cert.Spec.negDist (fun k => q (ix2 r k)) p c := by
  unfold ndist Cert.Spec.negDist
  rw [subf_apply, broadcast_apply]
  show Ideal.ofBits .f32 0x00000000#32 - Ideal.sqrt (max (sqd q p (ix2 r c)) (Ideal.ofBits .f32 0x00000000#32)) = _
  rw [zero_sub', sqd_apply, Ideal.ofBits_zero_f32]

/-- The maximum of row `r`. -/
private theorem rmax_apply (q : Vec Ideal S4096x128 .f32) (p : Vec Ideal S64x128 .f32) (r : Fin 4096) :
    rmax q p (ix1 r) = Cert.Spec.rowMax (fun k => q (ix2 r k)) p := by
  unfold rmax Cert.Spec.rowMax
  rw [maximumf_apply, broadcast_apply, rowMax_apply]
  simp only [ndist_apply, Ideal.ofBits_def]

/-- The shifted exponential at row `r`, class `c`. -/
private theorem expo_apply (q : Vec Ideal S4096x128 .f32) (p : Vec Ideal S64x128 .f32) (r : Fin 4096) (c : Fin 64) :
    expo q p (ix2 r c) = Cert.Spec.expo (fun k => q (ix2 r k)) p c := by
  unfold expo Cert.Spec.expo
  show Ideal.exp (ndist q p (ix2 r c)
    - broadcastTo S4096x64 (shapeCast S4096x1 (rmax q p) shapeCasts_S4096_S4096x1) broadcasts_S4096x1_S4096x64 (ix2 r c)) = _
  rw [broadcastTo_a1_ab_apply, shapeCast_a_a1_apply, ndist_apply, rmax_apply]

/-- Row `r`, class `c` of what the second kernel stores: the specification's weight for that row. -/
theorem k1_pay1_apply (q : Vec Ideal S4096x128 .f32) (p : Vec Ideal S64x128 .f32) (r : Fin 4096) (c : Fin 64) :
    k1_pay1 q p (ix2 r c) = Cert.Spec.outRow (fun k => q (ix2 r k)) p c := by
  rw [k1_pay1_eq, divf_apply, broadcastTo_a1_ab_apply, shapeCast_a_a1_apply, rowSum_apply]
  unfold Cert.Spec.outRow
  simp only [expo_apply]

end Cert.KernelIdeal.PayValue

end
-- ==== Proof.ArrValue.lean ====
/-
  What the two pipelines leave in their output arrays, on the extended reals.
  The first pipeline writes its output block back once, after the last point: the prototypes' array ends at the
  specification's prototypes of the embeddings and labels the region was entered with (block `t` of the inputs being rows
  `2048 · t …` of the arrays). The second writes block `t` (rows `4096 · t …`) at point `t`; the 64 blocks tile the result
  array, which ends at the specification's softmax weights of the queries against the prototypes.
-/
import proofs.«401886_j90391881712070_1_alg».proof.Proof.Data0
import proofs.«401886_j90391881712070_1_alg».proof.Proof.Data1
import proofs.«401886_j90391881712070_1_alg».proof.Proof.Pay0Value
import proofs.«401886_j90391881712070_1_alg».proof.Proof.Pay1Value
import proofs.«401886_j90391881712070_1_alg».proof.Proof.Spec
import Idealize.ShloMosaic.Lib.ValueIdx
import Idealize.ShloMosaic.Lib.Pipeline.Value

set_option maxRecDepth 16384

noncomputable section

open scoped BigOperators

namespace Cert.KernelIdeal.ArrValue

open Idealize.ShloMosaic Idealize.ShloMosaic.TcCoe Idealize.ShloMosaic.ValueIdx
open Idealize.ShloMosaic.Pipeline (Dat Cfg Window)
open Cert.KernelIdeal Cert.KernelIdeal.Gen Cert.KernelIdeal.Hand Cert.KernelIdeal.PayValue

variable (V : (c : Dev nD) → (b : Ref sig .tc) → Buf (Elt Ideal) ((c : Thread nD τ).loc b))

/-! ## The first pipeline -/

/-- The index maps of the first pipeline's windows at every grid point: the two inputs' block index is (t, 0), the
    output's is (0, 0). -/
private theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

/-- Row `r` of the embeddings' block at point `t` is row `2048 · t + r` of the embeddings' array. -/
private theorem eblk_apply (c : Dev nD) (t : Fin cfg0.N) (r : Fin 2048) (d : Fin 128) (n : Fin 65536)
    (hn : n.val = 2048 * t.val + r.val) :
    (iblk0 V c 0 t : Vec Ideal S2048x128 .f32) (ix2 r d) = (V c main_arg0 : S65536x128.Idx → EReal) (ix2 n d) := by
  obtain ⟨e0, e1, -⟩ := idx0 t
  unfold iblk0
  rw [View.read_apply]
  show V c main_arg0 _ = V c main_arg0 _
  congr 1
  funext a
  apply Fin.ext
  match a with
  | ⟨0, _⟩ => show win0_0.index t (0 : Fin 2) * 2048 + 1 * r.val = n.val; rw [e0, hn]; omega
  | ⟨1, _⟩ => show win0_0.index t (1 : Fin 2) * 128 + 1 * d.val = d.val; rw [e1]; omega

/-- Row `r` of the labels' block at point `t` is row `2048 · t + r` of the labels' column. -/
private theorem lblk_apply (c : Dev nD) (t : Fin cfg0.N) (r : Fin 2048) (n : Fin 65536)
    (hn : n.val = 2048 * t.val + r.val) :
    (iblk0 V c 1 t : Vec Ideal S2048x1 .i32) (ix2 r (0 : Fin 1))
      = (V c main_v0 : S65536x1.Idx → BitVec 32) (ix2 n (0 : Fin 1)) := by
  obtain ⟨-, -, e0, e1, -⟩ := idx0 t
  unfold iblk0
  rw [View.read_apply]
  show V c main_v0 _ = V c main_v0 _
  congr 1
  funext a
  apply Fin.ext
  match a with
  | ⟨0, _⟩ => show win0_1.index t (0 : Fin 2) * 2048 + 1 * r.val = n.val; rw [e0, hn]; omega
  | ⟨1, _⟩ => show win0_1.index t (1 : Fin 2) * 1 + 1 * 0 = 0; rw [e1]

/-- The first pipeline's output block is the whole prototypes' array: an index of the block is the same index of the
    array. -/
private theorem emb0_2 (t : Fin cfg0.N) (y : S64x128.Idx) : ((cfg0.win 2).blk t).view.emb y = y := by
  obtain ⟨-, -, -, -, e0, e1⟩ := idx0 t
  funext a
  apply Fin.ext
  match a with
  | ⟨0, _⟩ => show win0_2.index t (0 : Fin 2) * 64 + 1 * (y 0).val = (y 0).val; rw [e0]; omega
  | ⟨1, _⟩ => show win0_2.index t (1 : Fin 2) * 128 + 1 * (y 1).val = (y 1).val; rw [e1]; omega

/-- So an array read through that block is the array. -/
private theorem read0_2 (t : Fin cfg0.N) (G : S64x128.Idx → EReal) :
    ((cfg0.win 2).blk t).view.read (Elt Ideal) G = G := by
  funext y
  rw [View.read_apply]
  show G (((cfg0.win 2).blk t).view.emb y) = G y
  rw [emb0_2]

/-- The prototypes' array after the first pipeline: the specification's prototypes of the embeddings `emb` (the first
    window's array) and the labels `lab` (the second window's array, a 65536 × 1 column). -/
theorem arr0_final (c : Dev nD) (emb : Cert.Spec.SE.Idx → EReal) (lab : Cert.Spec.SL.Idx → BitVec 32)
    (hE : V c main_arg0 = emb) (hL : ∀ n : Fin 65536, V c main_v0 (ix2 n (0 : Fin 1)) = lab (ix1 n)) :
    (dat0 (F := Ideal) V c).arrAt 2 cfg0.N = Cert.Spec.proto emb lab := by
  have hp : protoBlk (eblk V c) (lblk V c) = Cert.Spec.proto emb lab :=
    protoBlk_eq (eblk V c) (lblk V c) emb lab
      (fun t ht r d => by
        have e := eblk_val V c ⟨t, lt_of_lt_of_eq ht N_0.symm⟩
        rw [show eblk V c t = iblk0 V c 0 ⟨t, lt_of_lt_of_eq ht N_0.symm⟩ from e,
          eblk_apply V c ⟨t, lt_of_lt_of_eq ht N_0.symm⟩ r d ⟨2048 * t + r.val, by omega⟩ rfl, hE])
      (fun t ht r => by
        have e := lblk_val V c ⟨t, lt_of_lt_of_eq ht N_0.symm⟩
        rw [show lblk V c t = iblk0 V c 1 ⟨t, lt_of_lt_of_eq ht N_0.symm⟩ from e,
          lblk_apply V c ⟨t, lt_of_lt_of_eq ht N_0.symm⟩ r ⟨2048 * t + r.val, by omega⟩ rfl, hL])
  refine (dat0 V c).arrAt_eq_of_cover 2 (Cert.Spec.proto emb lab) (fun t hf => ?_) (fun i => ?_)
  · show (cfg0.win 2).cut (grid0.coords t) ((dat0 V c).after 2 t) = _
    rw [after0_2, hp]
    exact (read0_2 t (Cert.Spec.proto emb lab)).symm
  · have hN : (31 : ℕ) < cfg0.N := lt_of_lt_of_eq (by decide) N_0.symm
    refine ⟨⟨31, hN⟩, flush0_2_last ⟨31, hN⟩ rfl, ?_⟩
    rw [← emb0_2 ⟨31, hN⟩ i]
    exact ((cfg0.win 2).blk ⟨31, hN⟩).view.emb_mem_set i

/-! ## The second pipeline -/

/-- The index maps of the second pipeline's windows at every grid point: the queries' and the result's block index is
    (t, 0), the prototypes' is (0, 0). -/
private theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `r` of the queries' block at point `t` is row `4096 · t + r` of the queries' array. -/
private theorem qblk_apply (c : Dev nD) (t : Fin cfg1.N) (r : Fin 4096) (k : Fin 128) (n : Fin 262144)
    (hn : n.val = 4096 * t.val + r.val) :
    (iblk1 V c 0 t : Vec Ideal S4096x128 .f32) (ix2 r k) = (V c main_arg2 : S262144x128.Idx → EReal) (ix2 n k) := by
  obtain ⟨e0, e1, -⟩ := idx1 t
  unfold iblk1
  rw [View.read_apply]
  show V c main_arg2 _ = V c main_arg2 _
  congr 1
  funext a
  apply Fin.ext
  match a with
  | ⟨0, _⟩ => show win1_0.index t (0 : Fin 2) * 4096 + 1 * r.val = n.val; rw [e0, hn]; omega
  | ⟨1, _⟩ => show win1_0.index t (1 : Fin 2) * 128 + 1 * k.val = k.val; rw [e1]; omega

/-- The prototypes' block at every point is the whole prototypes' array. -/
private theorem pblk_eq (c : Dev nD) (t : Fin cfg1.N) :
    (iblk1 V c 1 t : Vec Ideal S64x128 .f32) = (V c main_v1 : S64x128.Idx → EReal) := by
  obtain ⟨-, -, e0, e1, -⟩ := idx1 t
  funext y
  unfold iblk1
  rw [View.read_apply]
  show V c main_v1 _ = V c main_v1 _
  congr 1
  funext a
  apply Fin.ext
  match a with
  | ⟨0, _⟩ => show win1_1.index t (0 : Fin 2) * 64 + 1 * (y 0).val = (y 0).val; rw [e0]; omega
  | ⟨1, _⟩ => show win1_1.index t (1 : Fin 2) * 128 + 1 * (y 1).val = (y 1).val; rw [e1]; omega

/-- Row `r`, class `cc` of the result's block at point `t` is row `4096 · t + r`, class `cc` of the result array. -/
private theorem emb1_2 (t : Fin cfg1.N) (r : Fin 4096) (cc : Fin 64) (n : Fin 262144)
    (hn : n.val = 4096 * t.val + r.val) :
    ((cfg1.win 2).blk t).view.emb (ix2 r cc) = (ix2 n cc : S262144x64.Idx) := by
  obtain ⟨-, -, -, -, e0, e1⟩ := idx1 t
  funext a
  apply Fin.ext
  match a with
  | ⟨0, _⟩ => show win1_2.index t (0 : Fin 2) * 4096 + 1 * r.val = n.val; rw [e0, hn]; omega
  | ⟨1, _⟩ => show win1_2.index t (1 : Fin 2) * 64 + 1 * cc.val = cc.val; rw [e1]; omega

/-- What point `t` stores, from a query block `x` that is rows `4096 · t …` of `q` and the prototypes `p`, is block `t`
    of the specification's weights. -/
private theorem out_block (t : Fin cfg1.N) (x : Vec Ideal S4096x128 .f32) (pp : Vec Ideal S64x128 .f32)
    (q : Cert.Spec.SQ.Idx → EReal) (p : Cert.Spec.SP.Idx → EReal)
    (hx : ∀ (r : Fin 4096) (k : Fin 128) (n : Fin 262144), n.val = 4096 * t.val + r.val → x (ix2 r k) = q (ix2 n k))
    (hp : pp = p) :
    (k1_pay1 x pp : S4096x64.Idx → EReal) = ((cfg1.win 2).blk t).view.read (Elt Ideal) (Cert.Spec.out q p) := by
  have hN : t.val < 64 := lt_of_lt_of_eq t.isLt N_1
  funext y
  obtain ⟨r, cc, rfl⟩ : ∃ (r : Fin 4096) (cc : Fin 64), y = ix2 r cc := ⟨y 0, y 1, eq_ix2 y⟩
  rw [k1_pay1_apply, View.read_apply]
  show _ = Cert.Spec.out q p (((cfg1.win 2).blk t).view.emb (ix2 r cc))
  rw [emb1_2 t r cc ⟨4096 * t.val + r.val, by omega⟩ rfl, Cert.Spec.out_ix2, hp]
  exact congrArg (fun f => Cert.Spec.outRow f p cc) (funext fun k => hx r k _ rfl)

/-- Every index of the result array lies in the block of the point its row number divided by 4096 names. -/
private theorem cover1 (i : S262144x64.Idx) :
    ∃ t : Fin cfg1.N, (cfg1.win 2).flush t = true ∧ i ∈ ((cfg1.win 2).blk t).view.set := by
  obtain ⟨n, cc, rfl⟩ : ∃ (n : Fin 262144) (cc : Fin 64), i = ix2 n cc := ⟨i 0, i 1, eq_ix2 i⟩
  have hN : n.val / 4096 < cfg1.N := lt_of_lt_of_eq (by have := n.isLt; omega) N_1.symm
  refine ⟨⟨n.val / 4096, hN⟩, flush1_2 _, ?_⟩
  rw [← emb1_2 ⟨n.val / 4096, hN⟩ ⟨n.val % 4096, Nat.mod_lt _ (by decide)⟩ cc n
    (by show n.val = 4096 * (n.val / 4096) + n.val % 4096; omega)]
  exact ((cfg1.win 2).blk ⟨n.val / 4096, hN⟩).view.emb_mem_set _

/-- The result array after the second pipeline: the specification's weights of the queries `q` (the first window's
    array) against the prototypes `p` (the second window's array). -/
theorem arr1_final (c : Dev nD) (q : Cert.Spec.SQ.Idx → EReal) (p : Cert.Spec.SP.Idx → EReal)
    (hQ : V c main_arg2 = q) (hP : V c main_v1 = p) :
    (dat1 (F := Ideal) V c).arrAt 2 cfg1.N = Cert.Spec.out q p := by
  refine (dat1 V c).arrAt_eq_of_cover 2 (Cert.Spec.out q p) (fun t _ => ?_) (fun i => cover1 i)
  show (cfg1.win 2).cut (grid1.coords t) ((dat1 V c).after 2 t) = _
  rw [after1_2]
  exact out_block t (iblk1 V c 0 t) (iblk1 V c 1 t) q p
    (fun r k n hn => by rw [qblk_apply V c t r k n hn, hQ]) (by rw [pblk_eq, hP])

end Cert.KernelIdeal.ArrValue

end
-- ==== Proof.KernelRun.lean ====
/-
  The idealized kernel's run, on the extended reals: the result array ends at the specification's function of the three
  argument arrays. The program's run leaves in the result array what the second pipeline's write-backs leave; that is the
  specification's softmax weights of the queries as launched against the prototypes' array, which the first pipeline left at
  the specification's prototypes of the embeddings as launched and of the label column; and the label column is the host
  reshape of the labels: its entry (n, 0) is label n.
-/
import proofs.«401886_j90391881712070_1_alg».proof.Proof.Run
import proofs.«401886_j90391881712070_1_alg».proof.Proof.ArrValue
import proofs.«401886_j90391881712070_1_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.KernelRun

open Idealize.ShloMosaic Idealize.ShloMosaic.TcCoe Idealize.ShloMosaic.ValueIdx Idealize.SL.Sem
open Cert.KernelIdeal Cert.KernelIdeal.Gen Cert.KernelIdeal.Hand Cert.KernelIdeal.ArrValue

variable (m : (ℓ : Loc nD τ sig) → Buf (Elt Ideal) ℓ) (ρ : Dev nD → PrngReg)

/-- After the host reshape the label column's entry (n, 0) is label n of the argument. -/
theorem labels_col (c : Dev nD) (n : Fin 65536) :
    U1 m c main_v0 (ix2 n (0 : Fin 1)) = m ((c.tc : Thread nD τ).loc main_arg1) (ix1 n) := by
  have e : (U1 m c main_v0 : S65536x1.Idx → BitVec 32)
      = shapeCast S65536x1 (m ((c.tc : Thread nD τ).loc main_arg1) : S65536.Idx → BitVec 32) shapeCasts_S65536_S65536x1 := by
    dsimp only [U1, W1, W0, hostOps0]
    after_results
    rfl
  refine (congrFun e (ix2 n (0 : Fin 1))).trans ?_
  exact shapeCast_apply _ shapeCasts_S65536_S65536x1 (ix2 n (0 : Fin 1)) (ix1 n) (by
    rw [Shape.rowMajor_val_two, Shape.rowMajor_val_one]
    show n.val = n.val * 1 + 0
    omega)

/-- Every weakly fair execution of the idealized kernel ends with its result array at the specification's function of the
    argument arrays, the arguments unchanged. -/
theorem kernel_run :
    θ_run (Cert.KernelIdeal.defs (F := Ideal)) (onTc (τ := τ) (Cert.KernelIdeal.main (F := Ideal))) ⟨m, fun _ => 0, ρ⟩
      (fun r => ∀ c : Dev nD,
        r.2.mem ((c.tc : Thread nD τ).loc main_v2)
            = Cert.Spec.result (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) := by
  refine (θ_run _ _ _).mono (fun _ h c => ⟨(h c).1.trans ?_, (h c).2⟩) (run_main (F := Ideal) m ρ)
  exact arr1_final (U2 m) c _ _ (U2_main_arg2 m c)
    ((U2_main_v1 m c).trans (arr0_final (U1 m) c _ _ (U1_main_arg0 m c) (labels_col m c)))

end Cert.KernelIdeal.KernelRun

end
-- ==== Proof.RefValue.lean ====
/-
  The reference program's result, read index by index, is the specification's function of the three argument arrays.
-/
import proofs.«401886_j90391881712070_1_alg».proof.Defs
import proofs.«401886_j90391881712070_1_alg».proof.Proof.Gen.ReferenceIdeal.Run
import proofs.«401886_j90391881712070_1_alg».proof.Proof.Gen.ReferenceIdeal.Read
import proofs.«401886_j90391881712070_1_alg».proof.Proof.Spec
import Idealize.ShloMosaic.Lib.ValueIdx
import Idealize.ShloMosaic.Lib.Pipeline.Value
import Idealize.ShloMosaic.PureOps.Ideal.Laws
import Idealize.ShloMosaic.Lib.StableHlo.Run
import Idealize.ShloMosaic.Lib.IdealHost
import Idealize.ShloMosaic.Lib.ValueIdxRank1

noncomputable section

open Idealize.ShloMosaic Idealize.ShloMosaic.TcCoe Idealize.SL.Sem
open scoped BigOperators

namespace Cert.ReferenceIdeal.RefValue

open Cert.ReferenceIdeal Cert.ReferenceIdeal.Gen Cert.ReferenceIdeal.Value
open Idealize.ShloMosaic.ValueIdx

/-- A 32-bit word read signed is the class number c < 64 exactly when it is that number's word. -/
private theorem toInt_eq_iff (w : BitVec 32) (c : Fin 64) : w.toInt = (c.val : Int) ↔ w = BitVec.ofNat 32 c.val := by
  constructor
  · intro h
    have := BitVec.ofInt_toInt (x := w)
    rw [h] at this
    rw [← this]
    simp
  · intro h
    subst h
    revert c
    decide

/-! ## The class-sum scatter: operand 64 × 128, one scalar index per update row, updates 65536 × 128 -/

/-- The window of update index j starts, on the class axis, at its row's label read signed. -/
private theorem start2_0 (j : S65536x128.Idx) (idx : IVec S65536x1 32) :
    scatter_S64x128_S65536x1_S65536x128_1_0_0_1.start j idx 0 = (idx (ix2 (j 0) 0)).toInt := by
  unfold ScatterDims.start
  rw [dif_pos (show (0 : Fin S64x128.rank) ∈ scatter_S64x128_S65536x1_S65536x128_1_0_0_1.scatterDimsToOperandDims by decide)]
  refine congrArg (fun i => (idx i).toInt) (funext fun b => Fin.ext ?_)
  match b with
  | ⟨0, _⟩ => rfl
  | ⟨1, _⟩ => rfl

/-- … and at zero on the column axis. -/
private theorem start2_1 (j : S65536x128.Idx) (idx : IVec S65536x1 32) :
    scatter_S64x128_S65536x1_S65536x128_1_0_0_1.start j idx 1 = 0 := by
  unfold ScatterDims.start
  rw [dif_neg (show ¬(1 : Fin S64x128.rank) ∈ scatter_S64x128_S65536x1_S65536x128_1_0_0_1.scatterDimsToOperandDims by decide)]

/-- The window coordinate is zero on the (inserted) class axis … -/
private theorem window2_0 (j : S65536x128.Idx) :
    scatter_S64x128_S65536x1_S65536x128_1_0_0_1.window j 0 = 0 := by
  unfold ScatterDims.window
  rw [dif_neg (show ¬(0 : Fin S64x128.rank) ∈ scatter_S64x128_S65536x1_S65536x128_1_0_0_1.sKept by decide)]

/-- … and the update's column on the column axis. -/
private theorem window2_1 (j : S65536x128.Idx) :
    scatter_S64x128_S65536x1_S65536x128_1_0_0_1.window j 1 = (j 1).val := by
  unfold ScatterDims.window
  rw [dif_pos (show (1 : Fin S64x128.rank) ∈ scatter_S64x128_S65536x1_S65536x128_1_0_0_1.sKept by decide)]
  rfl

/-- An update index lands at (c, d) exactly when its row's label read signed is c and its column is d;
    a label outside 0 … 63 lands nowhere. -/
private theorem resultIdx2_iff (j : S65536x128.Idx) (idx : IVec S65536x1 32) (c : Fin 64) (d : Fin 128) :
    scatter_S64x128_S65536x1_S65536x128_1_0_0_1.resultIdx? j idx = some (ix2 c d)
      ↔ (idx (ix2 (j 0) 0)).toInt = (c.val : Int) ∧ (j 1).val = d.val := by
  unfold ScatterDims.resultIdx?
  split
  · rename_i h
    obtain ⟨h0a, h0b⟩ := h 0
    rw [start2_0, window2_0] at h0a h0b
    rw [Option.some.injEq]
    constructor
    · intro e
      have e0 : (scatter_S64x128_S65536x1_S65536x128_1_0_0_1.start j idx 0
          + (scatter_S64x128_S65536x1_S65536x128_1_0_0_1.window j 0 : Int)).toNat = c.val :=
        congrArg (fun f : S64x128.Idx => (f 0).val) e
      have e1 : (scatter_S64x128_S65536x1_S65536x128_1_0_0_1.start j idx 1
          + (scatter_S64x128_S65536x1_S65536x128_1_0_0_1.window j 1 : Int)).toNat = d.val :=
        congrArg (fun f : S64x128.Idx => (f 1).val) e
      rw [start2_0, window2_0] at e0
      rw [start2_1, window2_1] at e1
      constructor <;> omega
    · intro ⟨e0, e1⟩
      funext a
      apply Fin.ext
      match a with
      | ⟨0, _⟩ =>
        show (scatter_S64x128_S65536x1_S65536x128_1_0_0_1.start j idx 0
          + (scatter_S64x128_S65536x1_S65536x128_1_0_0_1.window j 0 : Int)).toNat = c.val
        rw [start2_0, window2_0]; omega
      | ⟨1, _⟩ =>
        show (scatter_S64x128_S65536x1_S65536x128_1_0_0_1.start j idx 1
          + (scatter_S64x128_S65536x1_S65536x128_1_0_0_1.window j 1 : Int)).toNat = d.val
        rw [start2_1, window2_1]; omega
  · rename_i h
    constructor
    · intro e; exact absurd e (by simp)
    · intro ⟨e0, e1⟩
      exfalso
      apply h
      have H0 : 0 ≤ scatter_S64x128_S65536x1_S65536x128_1_0_0_1.start j idx 0
            + (scatter_S64x128_S65536x1_S65536x128_1_0_0_1.window j 0 : Int)
          ∧ scatter_S64x128_S65536x1_S65536x128_1_0_0_1.start j idx 0
            + (scatter_S64x128_S65536x1_S65536x128_1_0_0_1.window j 0 : Int) < (64 : Int) := by
        rw [start2_0, window2_0]; have := c.isLt; omega
      have H1 : 0 ≤ scatter_S64x128_S65536x1_S65536x128_1_0_0_1.start j idx 1
            + (scatter_S64x128_S65536x1_S65536x128_1_0_0_1.window j 1 : Int)
          ∧ scatter_S64x128_S65536x1_S65536x128_1_0_0_1.start j idx 1
            + (scatter_S64x128_S65536x1_S65536x128_1_0_0_1.window j 1 : Int) < (128 : Int) := by
        rw [start2_1, window2_1]; have := d.isLt; omega
      intro a
      match a with
      | ⟨0, _⟩ => exact H0
      | ⟨1, _⟩ => exact H1

/-- The class-sum scatter read at (c, d): the operand's element plus the sum over the update rows of the row's
    element in column d, counted when the row's label is the class c. -/
private theorem scatter2_apply (x : S64x128.Idx → EReal) (idx : IVec S65536x1 32) (upd : S65536x128.Idx → EReal)
    (c : Fin 64) (d : Fin 128) :
    Ideal.hostScatterAdd scatter_S64x128_S65536x1_S65536x128_1_0_0_1 x idx upd (ix2 c d)
      = x (ix2 c d) + ∑ n : Fin 65536, Cert.Spec.hot (idx (ix2 n 0)) c * upd (ix2 n d) := by
  unfold Ideal.hostScatterAdd
  refine congrArg (x (ix2 c d) + ·) ?_
  rw [Finset.sum_filter, sum_idx2]
  refine Finset.sum_congr rfl fun n _ => ?_
  unfold Cert.Spec.hot
  by_cases hw : idx (ix2 n 0) = BitVec.ofNat 32 c.val
  · rw [if_pos hw, one_mul]
    have : ∀ d' : Fin 128, (scatter_S64x128_S65536x1_S65536x128_1_0_0_1.resultIdx? (ix2 n d') idx = some (ix2 c d)) ↔ d' = d := by
      intro d'
      rw [resultIdx2_iff]
      constructor
      · intro ⟨_, e⟩; exact Fin.ext e
      · intro e; exact ⟨(toInt_eq_iff _ c).2 hw, congrArg Fin.val e⟩
    simp only [this]
    rw [Finset.sum_ite_eq' Finset.univ d (fun d' => upd (ix2 n d')), if_pos (Finset.mem_univ _)]
  · rw [if_neg hw, zero_mul]
    refine Finset.sum_eq_zero fun d' _ => ?_
    rw [if_neg]
    rw [resultIdx2_iff]
    intro ⟨e, _⟩
    exact hw ((toInt_eq_iff _ c).1 e)

/-! ## The class-count scatter: operand 64, one scalar index per update, updates 65536 -/

/-- The window of update index j starts at its label read signed. -/
private theorem start1_0 (j : S65536.Idx) (idx : IVec S65536x1 32) :
    scatter_S64_S65536x1_S65536_n_0_0_1.start j idx 0 = (idx (ix2 (j 0) 0)).toInt := by
  unfold ScatterDims.start
  rw [dif_pos (show (0 : Fin S64.rank) ∈ scatter_S64_S65536x1_S65536_n_0_0_1.scatterDimsToOperandDims by decide)]
  refine congrArg (fun i => (idx i).toInt) (funext fun b => Fin.ext ?_)
  match b with
  | ⟨0, _⟩ => rfl
  | ⟨1, _⟩ => rfl

/-- The window coordinate is zero on the (inserted) class axis. -/
private theorem window1_0 (j : S65536.Idx) :
    scatter_S64_S65536x1_S65536_n_0_0_1.window j 0 = 0 := by
  unfold ScatterDims.window
  rw [dif_neg (show ¬(0 : Fin S64.rank) ∈ scatter_S64_S65536x1_S65536_n_0_0_1.sKept by decide)]

/-- An update index lands at class c exactly when its label read signed is c. -/
private theorem resultIdx1_iff (j : S65536.Idx) (idx : IVec S65536x1 32) (c : Fin 64) :
    scatter_S64_S65536x1_S65536_n_0_0_1.resultIdx? j idx = some (ix1 c)
      ↔ (idx (ix2 (j 0) 0)).toInt = (c.val : Int) := by
  unfold ScatterDims.resultIdx?
  split
  · rename_i h
    obtain ⟨h0a, h0b⟩ := h 0
    rw [start1_0, window1_0] at h0a h0b
    rw [Option.some.injEq]
    constructor
    · intro e
      have e0 : (scatter_S64_S65536x1_S65536_n_0_0_1.start j idx 0
          + (scatter_S64_S65536x1_S65536_n_0_0_1.window j 0 : Int)).toNat = c.val :=
        congrArg (fun f : S64.Idx => (f 0).val) e
      rw [start1_0, window1_0] at e0
      omega
    · intro e0
      funext a
      apply Fin.ext
      match a with
      | ⟨0, _⟩ =>
        show (scatter_S64_S65536x1_S65536_n_0_0_1.start j idx 0
          + (scatter_S64_S65536x1_S65536_n_0_0_1.window j 0 : Int)).toNat = c.val
        rw [start1_0, window1_0]; omega
  · rename_i h
    constructor
    · intro e; exact absurd e (by simp)
    · intro e0
      exfalso
      apply h
      have H0 : 0 ≤ scatter_S64_S65536x1_S65536_n_0_0_1.start j idx 0
            + (scatter_S64_S65536x1_S65536_n_0_0_1.window j 0 : Int)
          ∧ scatter_S64_S65536x1_S65536_n_0_0_1.start j idx 0
            + (scatter_S64_S65536x1_S65536_n_0_0_1.window j 0 : Int) < (64 : Int) := by
        rw [start1_0, window1_0]; have := c.isLt; omega
      intro a
      match a with
      | ⟨0, _⟩ => exact H0

/-- The class-count scatter read at c: the operand's element plus the sum over the updates of the update,
    counted when its label is the class c. -/
private theorem scatter1_apply (x : S64.Idx → EReal) (idx : IVec S65536x1 32) (upd : S65536.Idx → EReal) (c : Fin 64) :
    Ideal.hostScatterAdd scatter_S64_S65536x1_S65536_n_0_0_1 x idx upd (ix1 c)
      = x (ix1 c) + ∑ n : Fin 65536, Cert.Spec.hot (idx (ix2 n 0)) c * upd (ix1 n) := by
  unfold Ideal.hostScatterAdd
  refine congrArg (x (ix1 c) + ·) ?_
  rw [Finset.sum_filter, ← Equiv.sum_comp (idxEquiv1 (n := 65536)).symm]
  refine Finset.sum_congr rfl fun n _ => ?_
  show (if scatter_S64_S65536x1_S65536_n_0_0_1.resultIdx? (ix1 n) idx = some (ix1 c) then upd (ix1 n) else 0) = _
  unfold Cert.Spec.hot
  by_cases hw : idx (ix2 n 0) = BitVec.ofNat 32 c.val
  · rw [if_pos hw, one_mul, if_pos]
    rw [resultIdx1_iff]
    exact (toInt_eq_iff _ c).2 hw
  · rw [if_neg hw, zero_mul, if_neg]
    rw [resultIdx1_iff]
    intro e
    exact hw ((toInt_eq_iff _ c).1 e)

/-! ## The stages, read at an index -/

/-- The three argument arrays' types. -/
private abbrev A0 : Type := (⟨S65536x128, .f32⟩ : BufTy).Contents (Elt Ideal)
private abbrev A1 : Type := (⟨S65536, .i32⟩ : BufTy).Contents (Elt Ideal)
private abbrev A2 : Type := (⟨S262144x128, .f32⟩ : BufTy).Contents (Elt Ideal)

private theorem idx1_ix2 (n : Fin 65536) : Read.idx_main_v1 (ix2 n (0 : Fin 1)) = ix1 n :=
  funext fun a => match a with | ⟨0, _⟩ => rfl

private theorem idx5_ix2 (n : Fin 65536) : Read.idx_main_v5 (ix2 n (0 : Fin 1)) = ix1 n :=
  funext fun a => match a with | ⟨0, _⟩ => rfl

/-- The class sums: the first scatter at (c, d). -/
private theorem v2_at (x0 : A0) (x1 : A1) (c : Fin 64) (d : Fin 128) :
    Read.val_main_v2 (F := Ideal) x0 x1 (ix2 c d) = Cert.Spec.classSum x0 x1 c d := by
  show Ideal.hostScatterAdd scatter_S64x128_S65536x1_S65536x128_1_0_0_1 (Read.val_main_v0 (F := Ideal))
    (Read.val_main_v1 (F := Ideal) x1) x0 (ix2 c d) = _
  rw [scatter2_apply, Read.val_main_v0_apply, Read.val_main_cst_apply, Ideal.ofBits_def, Ideal.ofBits_zero_f32, zero_add]
  unfold Cert.Spec.classSum
  refine Finset.sum_congr rfl fun n _ => ?_
  rw [Read.val_main_v1_apply, idx1_ix2]

/-- The class counts: the second scatter at c, its updates the constant one. -/
private theorem v6_at (x1 : A1) (c : Fin 64) :
    Read.val_main_v6 (F := Ideal) x1 (ix1 c) = Cert.Spec.classCount x1 c := by
  show Ideal.hostScatterAdd scatter_S64_S65536x1_S65536_n_0_0_1 (Read.val_main_v4 (F := Ideal))
    (Read.val_main_v5 (F := Ideal) x1) (Read.val_main_v3 (F := Ideal)) (ix1 c) = _
  rw [scatter1_apply, Read.val_main_v4_apply, Read.val_main_cst_1_apply, Ideal.ofBits_def, Ideal.ofBits_zero_f32, zero_add]
  unfold Cert.Spec.classCount
  refine Finset.sum_congr rfl fun n _ => ?_
  rw [Read.val_main_v5_apply, idx5_ix2, Read.val_main_v3_apply, Read.val_main_cst_0_apply, Ideal.ofBits_def,
    Ideal.ofBits_one_f32, mul_one]

private theorem idx9_10 (c : Fin 64) (d : Fin 128) : Read.idx_main_v9 (Read.idx_main_v10 (ix2 c d)) = ix1 c :=
  funext fun a => match a with | ⟨0, _⟩ => rfl

/-- The prototypes: the quotient of the class sums by the clamped counts at (c, d). -/
private theorem v11_at (x0 : A0) (x1 : A1) (c : Fin 64) (d : Fin 128) :
    Read.val_main_v11 (F := Ideal) x0 x1 (ix2 c d) = Cert.Spec.proto x0 x1 (ix2 c d) := by
  rw [Cert.Spec.proto_ix2]
  unfold Cert.Spec.protoAt
  rw [Read.val_main_v11_apply, v2_at, Read.val_main_v10_apply, Read.val_main_v9_apply, Read.val_main_v8_apply,
    idx9_10, v6_at, Read.val_main_v7_apply, Read.val_main_cst_2_apply, Ideal.hostDivf_def, Ideal.maximumf_def,
    Ideal.ofBits_def]

/-- The queries' squared norms: the row sum of squares at n. -/
private theorem v13_at (x2 : A2) (n : Fin 262144) :
    Read.val_main_v13 (F := Ideal) x2 (ix1 n) = ∑ k : Fin 128, x2 (ix2 n k) * x2 (ix2 n k) := by
  rw [Read.val_main_v13_apply, Read.val_main_cst_3_apply, Ideal.ofBits_def, Ideal.ofBits_zero_f32, zero_add]
  refine Finset.sum_congr rfl fun k _ => ?_
  have e : Read.idx_main_v13 (ix1 n) k = ix2 n k :=
    funext fun a => match a with | ⟨0, _⟩ => rfl | ⟨1, _⟩ => rfl
  rw [e, Read.val_main_v12_apply, Ideal.mulf_def]

/-- The prototypes' squared norms: the row sum of squares at c. -/
private theorem v16_at (x0 : A0) (x1 : A1) (c : Fin 64) :
    Read.val_main_v16 (F := Ideal) x0 x1 (ix1 c)
      = ∑ k : Fin 128, Cert.Spec.proto x0 x1 (ix2 c k) * Cert.Spec.proto x0 x1 (ix2 c k) := by
  rw [Read.val_main_v16_apply, Read.val_main_cst_4_apply, Ideal.ofBits_def, Ideal.ofBits_zero_f32, zero_add]
  refine Finset.sum_congr rfl fun k _ => ?_
  have e : Read.idx_main_v16 (ix1 c) k = ix2 c k :=
    funext fun a => match a with | ⟨0, _⟩ => rfl | ⟨1, _⟩ => rfl
  rw [e, Read.val_main_v15_apply, Ideal.mulf_def, v11_at]

/-- The cross term: the product of the doubled queries with the transposed prototypes at (n, c). -/
private theorem v24_at (x0 : A0) (x1 : A1) (x2 : A2) (n : Fin 262144) (c : Fin 64) :
    Read.val_main_v24 (F := Ideal) x0 x1 x2 (ix2 n c)
      = ∑ k : Fin 128, (Ideal.ofBits .f32 0x40000000#32 * x2 (ix2 n k)) * Cert.Spec.proto x0 x1 (ix2 c k) := by
  rw [Read.val_main_v24_apply]
  refine Finset.sum_congr rfl fun k _ => ?_
  have el : Read.lidx_main_v24 (ix2 n c) k = ix2 n k :=
    funext fun a => match a with | ⟨0, _⟩ => rfl | ⟨1, _⟩ => rfl
  have er : Read.ridx_main_v24 (ix2 n c) k = ix2 k c :=
    funext fun a => match a with | ⟨0, _⟩ => rfl | ⟨1, _⟩ => rfl
  have et : Read.idx_main_v23 (ix2 k c) = ix2 c k :=
    funext fun a => match a with | ⟨0, _⟩ => rfl | ⟨1, _⟩ => rfl
  rw [el, er, Read.val_main_v22_apply, Read.val_main_v21_apply, Read.val_main_cst_5_apply, Read.val_main_v23_apply, et,
    v11_at, Ideal.mulf_def, Ideal.ofBits_def]

/-- Minus the distance of query n to prototype c. -/
private theorem v29_at (x0 : A0) (x1 : A1) (x2 : A2) (n : Fin 262144) (c : Fin 64) :
    Read.val_main_v29 (F := Ideal) x0 x1 x2 (ix2 n c)
      = Cert.Spec.negDist (fun k => x2 (ix2 n k)) (Cert.Spec.proto x0 x1) c := by
  unfold Cert.Spec.negDist Cert.Spec.sqDist
  have e18 : Read.idx_main_v14 (Read.idx_main_v18 (ix2 n c)) = ix1 n :=
    funext fun a => match a with | ⟨0, _⟩ => rfl
  have e19 : Read.idx_main_v17 (Read.idx_main_v19 (ix2 n c)) = ix1 c :=
    funext fun a => match a with | ⟨0, _⟩ => rfl
  rw [Read.val_main_v29_apply, Read.val_main_v28_apply, Read.val_main_v27_apply, Read.val_main_v25_apply,
    Read.val_main_v20_apply, Read.val_main_v18_apply, Read.val_main_v14_apply, e18, v13_at,
    Read.val_main_v19_apply, Read.val_main_v17_apply, e19, v16_at, v24_at,
    Read.val_main_v26_apply, Read.val_main_cst_6_apply,
    Ideal.hostNegf_def, Ideal.negf_def, Ideal.hostUnary_sqrt_def, Ideal.maximumf_def, Ideal.subf_def, Ideal.addf_def,
    Ideal.ofBits_def, Ideal.ofBits_zero_f32]

/-- The row maximum's reduction: the fold of max from minus infinity over the 64 classes at n. -/
private theorem v30_at (x0 : A0) (x1 : A1) (x2 : A2) (n : Fin 262144) :
    Read.val_main_v30 (F := Ideal) x0 x1 x2 (ix1 n)
      = (Finset.univ : Finset (Fin 64)).fold max (Ideal.ofBits .f32 0xFF800000#32)
          (fun c => Cert.Spec.negDist (fun k => x2 (ix2 n k)) (Cert.Spec.proto x0 x1) c) := by
  have hv : ∀ c : Fin 64, Read.val_main_v29 (F := Ideal) x0 x1 x2 (ix2 n c)
      = Cert.Spec.negDist (fun k => x2 (ix2 n k)) (Cert.Spec.proto x0 x1) c := fun c => v29_at x0 x1 x2 n c
  unfold Read.val_main_v30
  generalize Read.val_main_v29 (F := Ideal) x0 x1 x2 = y at hv ⊢
  have hR : S262144x64.Reduces [1] S262144 := by decide
  rw [Host.reduce_eq_fold_single (FloatOps.maximumf (F := Ideal) (φ := .f32)) y (Read.val_main_cst_7 (F := Ideal))
    reducesTo_S262144x64_S262144_d1 hR h_S_ (ix1 n)]
  show (Finset.univ : Finset (Fin 64)).fold max (Ideal.ofBits .f32 0xFF800000#32) (y ∘ hR.lift (ix1 n)) = _
  refine congrArg (fun f => (Finset.univ : Finset (Fin 64)).fold max (Ideal.ofBits .f32 0xFF800000#32) f)
    (funext fun c => ?_)
  rw [← hv c]
  exact congrArg y (funext fun a => Fin.ext (by match a with | ⟨0, _⟩ => rfl | ⟨1, _⟩ => rfl))

/-- The row maximum, broadcast along the classes. -/
private theorem v34_at (x0 : A0) (x1 : A1) (x2 : A2) (n : Fin 262144) (c : Fin 64) :
    Read.val_main_v34 (F := Ideal) x0 x1 x2 (ix2 n c)
      = Cert.Spec.rowMax (fun k => x2 (ix2 n k)) (Cert.Spec.proto x0 x1) := by
  unfold Cert.Spec.rowMax
  have e : Read.idx_main_v33 (Read.idx_main_v34 (ix2 n c)) = ix1 n :=
    funext fun a => match a with | ⟨0, _⟩ => rfl
  rw [Read.val_main_v34_apply, Read.val_main_v33_apply, e, Read.val_main_v32_apply, v30_at,
    Read.val_main_v31_apply, Read.val_main_cst_8_apply, Ideal.maximumf_def, Ideal.ofBits_def]

/-- The shifted exponential at (n, c). -/
private theorem v36_at (x0 : A0) (x1 : A1) (x2 : A2) (n : Fin 262144) (c : Fin 64) :
    Read.val_main_v36 (F := Ideal) x0 x1 x2 (ix2 n c)
      = Cert.Spec.expo (fun k => x2 (ix2 n k)) (Cert.Spec.proto x0 x1) c := by
  unfold Cert.Spec.expo
  rw [Read.val_main_v36_apply, Read.val_main_v35_apply, v29_at, v34_at, Ideal.hostUnary_exp_def, Ideal.subf_def]

/-- The row sum of the shifted exponentials, broadcast along the classes. -/
private theorem v39_at (x0 : A0) (x1 : A1) (x2 : A2) (n : Fin 262144) (c : Fin 64) :
    Read.val_main_v39 (F := Ideal) x0 x1 x2 (ix2 n c)
      = ∑ c' : Fin 64, Cert.Spec.expo (fun k => x2 (ix2 n k)) (Cert.Spec.proto x0 x1) c' := by
  have e : Read.idx_main_v38 (Read.idx_main_v39 (ix2 n c)) = ix1 n :=
    funext fun a => match a with | ⟨0, _⟩ => rfl
  rw [Read.val_main_v39_apply, Read.val_main_v38_apply, e, Read.val_main_v37_apply, Read.val_main_cst_9_apply,
    Ideal.ofBits_def, Ideal.ofBits_zero_f32, zero_add]
  refine Finset.sum_congr rfl fun c' _ => ?_
  have e' : Read.idx_main_v37 (ix1 n) c' = ix2 n c' :=
    funext fun a => match a with | ⟨0, _⟩ => rfl | ⟨1, _⟩ => rfl
  rw [e', v36_at]

/-- The reference's result is the specification's function of the three argument arrays. -/
private theorem val_eq_result (x0 : A0) (x1 : A1) (x2 : A2) :
    Read.val_main_v40 (F := Ideal) x0 x1 x2 = Cert.Spec.result x0 x1 x2 := by
  funext i
  obtain ⟨n, c, rfl⟩ : ∃ (n : Fin 262144) (c : Fin 64), i = ix2 n c := ⟨i 0, i 1, eq_ix2 i⟩
  unfold Cert.Spec.result
  rw [Cert.Spec.out_ix2]
  unfold Cert.Spec.outRow
  rw [Read.val_main_v40_apply, v36_at, v39_at, Ideal.hostDivf_def]

/-- Every weakly fair execution of the reference ends with its result array at the specification's function of the
    argument arrays, the arguments unchanged. -/
theorem ref_run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      (fun r => ∀ c : Dev nD,
        r.2.mem ((c.tc : Thread nD τ).loc main_v40)
            = Cert.Spec.result (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run _ _ _).mono
    (fun _ h c => ⟨(h c).1.trans ((Read.val_main_v40_eq m c).trans (val_eq_result _ _ _)), (h c).2⟩)
    (Value.run m ρ)

end Cert.ReferenceIdeal.RefValue

end
-- ==== Proof.lean ====
/-
  The claim: the kernel and its jnp reference compute the same function on the extended reals.

  Both programs take support embeddings (65536 × 128), integer labels (65536) and queries (262144 × 128). Each forms, per class
  c < 64, the prototype "sum of the embeddings whose label is c, divided by max(number of such rows, 1)" — the reference by two
  scatter-adds over the labels, the kernel by a one-hot matrix product accumulated over 32 blocks of 2048 rows; a label outside
  0 … 63 matches no class on either side — and then, per query row, the softmax over the classes of minus the distance to
  each prototype, the squared distance expanded as ‖x‖² + ‖p‖² − 2⟨x, p⟩ and clamped at zero. The two differ only in the
  order of sums, in a product with a zero-one weight against a selection of rows, and in where the factor 2 stands
  (2·⟨x, p⟩ against ⟨2·x, p⟩), none of which matters on the extended reals: sums commute, 0 · x = 0, 1 · x = x, and the
  finite non-negative number 2 distributes over any sum. The precondition (finite inputs) is never needed.

  Frames: each kernel program is run as its host reshape followed by its two pipelines (Proof/Run.lean for the idealized
  program, Proof/Bits/Run.lean, the same text, for the word-level one); the reference is a straight line of host operations.
  The idealization rewrote no operation, so the preservation claim is empty.
-/
import proofs.«401886_j90391881712070_1_alg».proof.Defs
import proofs.«401886_j90391881712070_1_alg».proof.Proof.Gen.Kernel
import proofs.«401886_j90391881712070_1_alg».proof.Proof.Gen.KernelIdeal
import proofs.«401886_j90391881712070_1_alg».proof.Proof.Gen.ReferenceIdeal
import proofs.«401886_j90391881712070_1_alg».proof.Proof.Gen.Pre_finite_inputs
import proofs.«401886_j90391881712070_1_alg».proof.Proof.Gen.ReferenceIdeal.Run
import proofs.«401886_j90391881712070_1_alg».proof.Proof.Bits.Run
import proofs.«401886_j90391881712070_1_alg».proof.Proof.Run
import proofs.«401886_j90391881712070_1_alg».proof.Proof.KernelRun
import proofs.«401886_j90391881712070_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end and leaves its arguments as launched. -/
theorem frame_k : Cert.frame_Kernel := fun m ρ _ =>
  (θ_run Cert.Kernel.defs _ _).mono (fun _ h c => (h c).2) (Cert.Kernel.Hand.run_main (F := Bits) m ρ)

/-- So does the idealized kernel, -/
theorem frame_ki : Cert.frame_KernelIdeal := fun m ρ _ =>
  (θ_run Cert.KernelIdeal.defs _ _).mono (fun _ h c => (h c).2) (Cert.KernelIdeal.Hand.run_main (F := Ideal) m ρ)

/-- and the idealized reference. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with their result arrays at the specification's
    function of the arguments. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelRun.kernel_run m ρ, ?_⟩
  refine (θ_run Cert.ReferenceIdeal.defs _ _).mono (fun _ h c => ⟨(h c).1.trans ?_, (h c).2⟩)
    (Cert.ReferenceIdeal.RefValue.ref_run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
